-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32768x4096 : Shape := ⟨2, ![32768, 4096]⟩
abbrev S64x4096 : Shape := ⟨2, ![64, 4096]⟩
abbrev S64 : Shape := ⟨1, ![64]⟩
abbrev S_ : Shape := ⟨0, ![]⟩

class Facts : Prop where
  bcast_S_S32768x4096 : S_.BroadcastsInDim S32768x4096 (![] : Fin 0 → Fin S32768x4096.rank)
  reducesTo_S32768x4096_S_d0_1 : S32768x4096.ReducesTo [0, 1] S_
  h_S_ : 0 < S_.numel
  bcast_S_S64x4096 : S_.BroadcastsInDim S64x4096 (![] : Fin 0 → Fin S64x4096.rank)
  reducesTo_S64x4096_S_d0_1 : S64x4096.ReducesTo [0, 1] S_
  bcast_S_S64 : S_.BroadcastsInDim S64 (![] : Fin 0 → Fin S64.rank)
  reducesTo_S64_S_d0 : S64.ReducesTo [0] S_

variable [Facts]

def fn {F : FTy → Type} [FloatOps F] (main_arg0 : FVec F S32768x4096 .f32) (main_arg1 : FVec F S64x4096 .f32) (main_arg2 : FVec F S64 .f32) : IVec S_ 1 :=
  let main_v0 : FVec F S32768x4096 .f32 := Host.absf main_arg0
  let main_cst : FVec F S_ .f32 := constant S_ .f32 0x7F800000#32
  let main_v1 : FVec F S32768x4096 .f32 := broadcastInDim S32768x4096 ![] bcast_S_S32768x4096 main_cst
  let main_v2 : IVec S32768x4096 1 := cmpf .olt main_v0 main_v1
  let main_c : IVec S_ 1 := constantI S_ 1 1#1
  let main_v3 : IVec S_ 1 := (fun x v => Host.reduce IntOp.andi x v reducesTo_S32768x4096_S_d0_1 h_S_) main_v2 main_c
  let main_v4 : FVec F S64x4096 .f32 := Host.absf main_arg1
  let main_cst_0 : FVec F S_ .f32 := constant S_ .f32 0x7F800000#32
  let main_v5 : FVec F S64x4096 .f32 := broadcastInDim S64x4096 ![] bcast_S_S64x4096 main_cst_0
  let main_v6 : IVec S64x4096 1 := cmpf .olt main_v4 main_v5
  let main_c_1 : IVec S_ 1 := constantI S_ 1 1#1
  let main_v7 : IVec S_ 1 := (fun x v => Host.reduce IntOp.andi x v reducesTo_S64x4096_S_d0_1 h_S_) main_v6 main_c_1
  let main_v8 : IVec S_ 1 := andi main_v3 main_v7
  let main_v9 : FVec F S64 .f32 := Host.absf main_arg2
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  main_v13
-- ==== Kernel.lean ====
abbrev S32768x4096 : Shape := ⟨2, ![32768, 4096]⟩
abbrev S64x4096 : Shape := ⟨2, ![64, 4096]⟩
abbrev S64 : Shape := ⟨1, ![64]⟩
abbrev S4096x64 : Shape := ⟨2, ![4096, 64]⟩
abbrev S1x64 : Shape := ⟨2, ![1, 64]⟩
abbrev S32768x64 : Shape := ⟨2, ![32768, 64]⟩
abbrev S512x1024 : Shape := ⟨2, ![512, 1024]⟩
abbrev S1024x64 : Shape := ⟨2, ![1024, 64]⟩
abbrev S512x64 : Shape := ⟨2, ![512, 64]⟩

abbrev nBuf : Space → Nat
  | .hbm => 6
  | .vmem => 15
  | .smem => 0
  | _ => 0

abbrev bufTy : (tb : Table) → Fin (tcTables nBuf tb) → BufTy
  | .hbm, ⟨0, _⟩ => ⟨S32768x4096, .f32⟩
  | .hbm, ⟨1, _⟩ => ⟨S64x4096, .f32⟩
  | .hbm, ⟨2, _⟩ => ⟨S64, .f32⟩
  | .hbm, ⟨3, _⟩ => ⟨S4096x64, .f32⟩
  | .hbm, ⟨4, _⟩ => ⟨S1x64, .f32⟩
  | .hbm, ⟨5, _⟩ => ⟨S32768x64, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S1024x64, .f32⟩
  | .local _ .vmem, ⟨9, _⟩ => ⟨S1024x64, .f32⟩
  | .local _ .vmem, ⟨10, _⟩ => ⟨S1024x64, .f32⟩
  | .local _ .vmem, ⟨11, _⟩ => ⟨S1024x64, .f32⟩
  | .local _ .vmem, ⟨12, _⟩ => ⟨S1x64, .f32⟩
  | .local _ .vmem, ⟨13, _⟩ => ⟨S512x64, .f32⟩
  | .local _ .vmem, ⟨14, _⟩ => ⟨S512x64, .f32⟩
  | _, _ => ⟨S32768x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg9_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem9_1 : DmaSem sig := 14

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_2 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_3 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c1_i32 : BitVec 32 := 1#32
  let c0_i32 : BitVec 32 := 0#32
  let c0_i32_0 : BitVec 32 := 0#32
  ![c1_i32.toNat, c0_i32.toNat]

def cc0_transform_6 (i : grid0.Coords) : Fin 2 → Nat :=
  let arg0 : BitVec 32 := BitVec.ofNat 32 (i 0).val
  let c2_i32 : BitVec 32 := 2#32
  let c0_i32 : BitVec 32 := 0#32
  let c0_i32_0 : BitVec 32 := 0#32
  ![c2_i32.toNat, c0_i32.toNat]

def cc0_transform_7 (i : grid0.Coords) : Fin 2 → Nat :=
  let arg0 : BitVec 32 := BitVec.ofNat 32 (i 0).val
  let c3_i32 : BitVec 32 := 3#32
  let c0_i32 : BitVec 32 := 0#32
  let c0_i32_0 : BitVec 32 := 0#32
  ![c3_i32.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1024x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x64 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x64 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

class Facts₀ : Prop where
  transposes_S64x4096_S4096x64_1_0 : S64x4096.Transposes [1, 0] S4096x64
  shapeCasts_S64_S1x64 : S64.ShapeCasts S1x64
  inb_S512x1024_S512x1024_0_0 : ∀ a, (![0, 0] : Fin 2 → Nat) a + S512x1024.size a ≤ S512x1024.size a
  h_S512x1024 : 0 < S512x1024.numel
  inb_S1024x64_S1024x64_0_0 : ∀ a, (![0, 0] : Fin 2 → Nat) a + S1024x64.size a ≤ S1024x64.size a
  h_S1024x64 : 0 < S1024x64.numel
  shapeCasts_S1024x64_S1024x64 : S1024x64.ShapeCasts S1024x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S512x64 : S1x64.Broadcasts S512x64
  inb_S512x64_S512x64_0_0 : ∀ a, (![0, 0] : Fin 2 → Nat) a + S512x64.size a ≤ S512x64.size a
  h_S512x64 : 0 < S512x64.numel
  dot_S512x1024_S1024x64_S512x64_1_0_0_1_n_n_wf : DotDims.WF S512x1024 S1024x64 S512x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S32768x4096.size a
  hwx0_0 : ∀ i : grid0.Coords, EltTy.bits .f32 = 32 ∨ (Rect.block (s := S32768x4096) S512x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x1024.size a ≤ S32768x4096.size a
  hwx0_1 : ∀ i : grid0.Coords, EltTy.bits .f32 = 32 ∨ (Rect.block (s := S32768x4096) S512x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x1024.size a ≤ S32768x4096.size a
  hwx0_2 : ∀ i : grid0.Coords, EltTy.bits .f32 = 32 ∨ (Rect.block (s := S32768x4096) S512x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x1024.size a ≤ S32768x4096.size a
  hwx0_3 : ∀ i : grid0.Coords, EltTy.bits .f32 = 32 ∨ (Rect.block (s := S32768x4096) S512x1024.size (cc0_transform_3 i) (hinb0_3 i)).WholeWords (EltTy.packing .f32)
  hstage0_4 : ∀ j, (stage0_4 j).IsWhole
  nbuf0_4 : grid0.bufCount reads0_4 false = 1
  hreads0_4 : ∀ i i' : grid0.Coords, (∀ a, reads0_4 a = true → i a = i' a) → cc0_transform_4 i = cc0_transform_4 i'
  hinb0_4 : ∀ (i : grid0.Coords) a, (cc0_transform_4 i a + 1) * S1024x64.size a ≤ S4096x64.size a
  hwx0_4 : ∀ i : grid0.Coords, EltTy.bits .f32 = 32 ∨ (Rect.block (s := S4096x64) S1024x64.size (cc0_transform_4 i) (hinb0_4 i)).WholeWords (EltTy.packing .f32)
  hstage0_5 : ∀ j, (stage0_5 j).IsWhole
  nbuf0_5 : grid0.bufCount reads0_5 false = 1
  hreads0_5 : ∀ i i' : grid0.Coords, (∀ a, reads0_5 a = true → i a = i' a) → cc0_transform_5 i = cc0_transform_5 i'
  hinb0_5 : ∀ (i : grid0.Coords) a, (cc0_transform_5 i a + 1) * S1024x64.size a ≤ S4096x64.size a
  hwx0_5 : ∀ i : grid0.Coords, EltTy.bits .f32 = 32 ∨ (Rect.block (s := S4096x64) S1024x64.size (cc0_transform_5 i) (hinb0_5 i)).WholeWords (EltTy.packing .f32)
  hstage0_6 : ∀ j, (stage0_6 j).IsWhole
  nbuf0_6 : grid0.bufCount reads0_6 false = 1
  hreads0_6 : ∀ i i' : grid0.Coords, (∀ a, reads0_6 a = true → i a = i' a) → cc0_transform_6 i = cc0_transform_6 i'
  hinb0_6 : ∀ (i : grid0.Coords) a, (cc0_transform_6 i a + 1) * S1024x64.size a ≤ S4096x64.size a
  hwx0_6 : ∀ i : grid0.Coords, EltTy.bits .f32 = 32 ∨ (Rect.block (s := S4096x64) S1024x64.size (cc0_transform_6 i) (hinb0_6 i)).WholeWords (EltTy.packing .f32)
  hstage0_7 : ∀ j, (stage0_7 j).IsWhole
  nbuf0_7 : grid0.bufCount reads0_7 false = 1
  hreads0_7 : ∀ i i' : grid0.Coords, (∀ a, reads0_7 a = true → i a = i' a) → cc0_transform_7 i = cc0_transform_7 i'
  hinb0_7 : ∀ (i : grid0.Coords) a, (cc0_transform_7 i a + 1) * S1024x64.size a ≤ S4096x64.size a
  hwx0_7 : ∀ i : grid0.Coords, EltTy.bits .f32 = 32 ∨ (Rect.block (s := S4096x64) S1024x64.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x64.size a ≤ S1x64.size a
  hwx0_8 : ∀ i : grid0.Coords, EltTy.bits .f32 = 32 ∨ (Rect.block (s := S1x64) S1x64.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S512x64.size a ≤ S32768x64.size a
  hwx0_9 : ∀ i : grid0.Coords, EltTy.bits .f32 = 32 ∨ (Rect.block (s := S32768x64) S512x64.size (cc0_transform_9 i) (hinb0_9 i)).WholeWords (EltTy.packing .f32)

variable [Facts₀]

def dot_S512x1024_S1024x64_S512x64_1_0_0_1_n_n : DotDims S512x1024 S1024x64 S512x64 where
  lhsContracting := [1]
  rhsContracting := [0]
  lhsNonContracting := [0]
  rhsNonContracting := [1]
  lhsBatch := []
  rhsBatch := []
  wf := dot_S512x1024_S1024x64_S512x64_1_0_0_1_n_n_wf

abbrev win0_0 : Pipeline.Window sig grid0 :=
  Pipeline.Window.ofSpec (Memref.whole main_arg0) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S512x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg0) S512x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg0) S512x1024.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0) S1024x64.size cc0_transform_4 reads0_4 false false 1 stage0_4 sem0_4
    hrank0 hreads0_4 hinb0_4 nbuf0_4 (Memref.isWhole_whole _) hwx0_4 hstage0_4

abbrev win0_5 : Pipeline.Window sig grid0 :=
  Pipeline.Window.ofSpec (Memref.whole main_v0) S1024x64.size cc0_transform_5 reads0_5 false false 1 stage0_5 sem0_5
    hrank0 hreads0_5 hinb0_5 nbuf0_5 (Memref.isWhole_whole _) hwx0_5 hstage0_5

abbrev win0_6 : Pipeline.Window sig grid0 :=
  Pipeline.Window.ofSpec (Memref.whole main_v0) S1024x64.size cc0_transform_6 reads0_6 false false 1 stage0_6 sem0_6
    hrank0 hreads0_6 hinb0_6 nbuf0_6 (Memref.isWhole_whole _) hwx0_6 hstage0_6

abbrev win0_7 : Pipeline.Window sig grid0 :=
  Pipeline.Window.ofSpec (Memref.whole main_v0) S1024x64.size cc0_transform_7 reads0_7 false false 1 stage0_7 sem0_7
    hrank0 hreads0_7 hinb0_7 nbuf0_7 (Memref.isWhole_whole _) hwx0_7 hstage0_7

abbrev win0_8 : Pipeline.Window sig grid0 :=
  Pipeline.Window.ofSpec (Memref.whole main_v1) S1x64.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v2) S512x64.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

class Facts : Prop extends Facts₀ where

variable [Facts]
-- ==== ReferenceIdeal.lean ====
abbrev S32768x4096 : Shape := ⟨2, ![32768, 4096]⟩
abbrev S64x4096 : Shape := ⟨2, ![64, 4096]⟩
abbrev S64 : Shape := ⟨1, ![64]⟩
abbrev S4096x64 : Shape := ⟨2, ![4096, 64]⟩
abbrev S32768x64 : Shape := ⟨2, ![32768, 64]⟩
abbrev S1x64 : Shape := ⟨2, ![1, 64]⟩

abbrev nBuf : Space → Nat
  | .hbm => 8
  | .vmem => 0
  | .smem => 0
  | _ => 0

abbrev bufTy : (tb : Table) → Fin (tcTables nBuf tb) → BufTy
  | .hbm, ⟨0, _⟩ => ⟨S32768x4096, .f32⟩
  | .hbm, ⟨1, _⟩ => ⟨S64x4096, .f32⟩
  | .hbm, ⟨2, _⟩ => ⟨S64, .f32⟩
  | .hbm, ⟨3, _⟩ => ⟨S4096x64, .f32⟩
  | .hbm, ⟨4, _⟩ => ⟨S32768x64, .f32⟩
  | .hbm, ⟨5, _⟩ => ⟨S1x64, .f32⟩
  | .hbm, ⟨6, _⟩ => ⟨S32768x64, .f32⟩
  | .hbm, ⟨7, _⟩ => ⟨S32768x64, .f32⟩
  | _, _ => ⟨S32768x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]

class Facts₀ : Prop where
  transposes_S64x4096_S4096x64_1_0 : S64x4096.Transposes [1, 0] S4096x64
  bcast_S64_S1x64_1 : S64.BroadcastsInDim S1x64 (![1] : Fin 1 → Fin S1x64.rank)
  bcast_S1x64_S32768x64_0_1 : S1x64.BroadcastsInDim S32768x64 (![0, 1] : Fin 2 → Fin S32768x64.rank)
  dot_S32768x4096_S4096x64_S32768x64_1_0_0_1_n_n_wf : DotDims.WF S32768x4096 S4096x64 S32768x64 [1] [0] [0] [1] [] []

variable [Facts₀]

def dot_S32768x4096_S4096x64_S32768x64_1_0_0_1_n_n : DotDims S32768x4096 S4096x64 S32768x64 where
  lhsContracting := [1]
  rhsContracting := [0]
  lhsNonContracting := [0]
  rhsNonContracting := [1]
  lhsBatch := []
  rhsBatch := []
  wf := dot_S32768x4096_S4096x64_S32768x64_1_0_0_1_n_n_wf

class Facts : Prop extends Facts₀ where

variable [Facts]
-- ==== Proof.Kernel.Body.lean ====
/-
  What one grid point's body does to its ten staging buffers. The body reads the four column chunks of a
  token block (512 × 1024 each), the four matching row chunks of the transposed weight (1024 × 64 each) and the
  bias row (1 × 64), and overwrites the whole 512 × 64 output buffer with ONE store whose value is a pure
  function of those nine loads (the four partial products added left to right, plus the broadcast bias). It
  also loads the output buffer before storing into it, a value it never uses. So, whatever the output buffer
  held, afterwards it holds that function of the nine inputs, and the nine input buffers are as they were.
-/
import proofs.«126828_g35725537968819_cont_8to1_b_281_5_alg».proof.Proof.Gen.Kernel.Launch
import proofs.«126828_g35725537968819_cont_8to1_b_281_5_alg».proof.Proof.Gen.Kernel.Skeleton
import proofs.«126828_g35725537968819_cont_8to1_b_281_5_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's four whole-buffer rectangles -/

/-- A token block's column chunk, whole. -/
abbrev rTok : Rect S512x1024 := Rect.unit (s := S512x1024) ![0, 0] S512x1024.size inb_S512x1024_S512x1024_0_0
/-- A row chunk of the transposed weight, whole. -/
abbrev rWgt : Rect S1024x64 := Rect.unit (s := S1024x64) ![0, 0] S1024x64.size inb_S1024x64_S1024x64_0_0
/-- The bias row, whole. -/
abbrev rBias : Rect S1x64 := Rect.unit (s := S1x64) ![0, 0] S1x64.size inb_S1x64_S1x64_0_0
/-- The output block, whole. -/
abbrev rOut : Rect S512x64 := Rect.unit (s := S512x64) ![0, 0] S512x64.size inb_S512x64_S512x64_0_0

/-! ## What the body leaves in the output buffer -/

/-- The output buffer after the body, from the nine input buffers' contents: its one store, which covers it. -/
def blockOut (x0 x1 x2 x3 : Vec F S512x1024 .f32) (w0 w1 w2 w3 : Vec F S1024x64 .f32) (b : Vec F S1x64 .f32) :
    Vec F S512x64 .f32 :=
  View.canon [⟨rOut, k0_pay1 (View.ld x0 rTok) (View.ld w0 rWgt) (View.ld x1 rTok) (View.ld w1 rWgt)
    (View.ld x2 rTok) (View.ld w2 rWgt) (View.ld x3 rTok) (View.ld w3 rWgt) (View.ld b rBias)⟩]

/-- The one store fills the buffer. -/
theorem cover_out (p0 : Vec F S512x64 .f32) (y : S512x64.Idx) :
    ∃ pc ∈ ([⟨rOut, p0⟩] : List (View.Piece (Elt F) S512x64 .f32)), y ∈ pc.1.set :=
  View.cover_of_tiled [⟨rOut, p0⟩] S512x64.size (by rfl) y

/-! ## The body's triple -/

set_option maxHeartbeats 2000000 in
/-- The body on whole staging memrefs — the nine inputs' at read contents, the output's at anything — runs to a
    state that holds the inputs' as they were and the output's at `blockOut` of them. -/
theorem sound_kernel (c : Dev nD) (E : Set ℕ) (i : grid0.Coords)
    (a1 : Memref sig .tc .vmem S512x1024 .f32) (h1 : a1.IsWhole) (a2 : Memref sig .tc .vmem S512x1024 .f32) (h2 : a2.IsWhole)
    (a3 : Memref sig .tc .vmem S512x1024 .f32) (h3 : a3.IsWhole) (a4 : Memref sig .tc .vmem S512x1024 .f32) (h4 : a4.IsWhole)
    (a5 : Memref sig .tc .vmem S1024x64 .f32) (h5 : a5.IsWhole) (a6 : Memref sig .tc .vmem S1024x64 .f32) (h6 : a6.IsWhole)
    (a7 : Memref sig .tc .vmem S1024x64 .f32) (h7 : a7.IsWhole) (a8 : Memref sig .tc .vmem S1024x64 .f32) (h8 : a8.IsWhole)
    (a9 : Memref sig .tc .vmem S1x64 .f32) (h9 : a9.IsWhole) (a10 : Memref sig .tc .vmem S512x64 .f32) (h10 : a10.IsWhole)
    (x0 x1 x2 x3 : Vec F S512x1024 .f32) (w0 w1 w2 w3 : Vec F S1024x64 .f32) (b : Vec F S1x64 .f32) (K : PUnit → sProp 𝕄) :
    iprop(owns (c : Thread nD τ) a1 fullShare x0 ∗ owns (c : Thread nD τ) a2 fullShare x1 ∗ owns (c : Thread nD τ) a3 fullShare x2
        ∗ owns (c : Thread nD τ) a4 fullShare x3 ∗ owns (c : Thread nD τ) a5 fullShare w0 ∗ owns (c : Thread nD τ) a6 fullShare w1
        ∗ owns (c : Thread nD τ) a7 fullShare w2 ∗ owns (c : Thread nD τ) a8 fullShare w3 ∗ owns (c : Thread nD τ) a9 fullShare b
        ∗ (∃ d, owns (c : Thread nD τ) a10 fullShare d)
        ∗ (iprop(owns (c : Thread nD τ) a1 fullShare x0 ∗ owns (c : Thread nD τ) a2 fullShare x1 ∗ owns (c : Thread nD τ) a3 fullShare x2
            ∗ owns (c : Thread nD τ) a4 fullShare x3 ∗ owns (c : Thread nD τ) a5 fullShare w0 ∗ owns (c : Thread nD τ) a6 fullShare w1
            ∗ owns (c : Thread nD τ) a7 fullShare w2 ∗ owns (c : Thread nD τ) a8 fullShare w3 ∗ owns (c : Thread nD τ) a9 fullShare b
            ∗ owns (c : Thread nD τ) a10 fullShare (blockOut x0 x1 x2 x3 w0 w1 w2 w3 b)) -∗ K ⟨⟩))
      ⊢ wp frame (wpE (defs₀ (F := F)) Variants.none c none) E
          (cc0__router_block i a1 h1 a2 h2 a3 h3 a4 h4 a5 h5 a6 h6 a7 h7 a8 h8 a9 h9 a10 h10) K := by
  simp only [cc0__router_block_eq_skeleton]; unfold cc0__router_block_skel
  unfold owns
  iintro ⟨⟨%f1, %e1, H1⟩, ⟨%f2, %e2, H2⟩, ⟨%f3, %e3, H3⟩, ⟨%f4, %e4, H4⟩, ⟨%f5, %e5, H5⟩, ⟨%f6, %e6, H6⟩,
    ⟨%f7, %e7, H7⟩, ⟨%f8, %e8, H8⟩, ⟨%f9, %e9, H9⟩, ⟨%d10, %f10, -, H10⟩, Hk⟩
  subst e1 e2 e3 e4 e5 e6 e7 e8 e9
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  iexists _; isplitr
  swap; · iexact H10
  ipureintro
  exact View.read_writes_eq_canon _ _ _ (cover_out _)

end Cert.Kernel.Hand

end
-- ==== Proof.Kernel.Entry.lean ====
/-
  The program up to its one kernel region, and what the region's windows see. Before the region the host
  transposes the weight (64 × 4096 to 4096 × 64) and reshapes the bias (64 to 1 × 64); neither writes an argument
  array. Windows 0–3 read the SAME array, the tokens `x`, at column chunks 0–3 of the point's row block; windows
  4–7 read the SAME array, the transposed weight, at row chunks 0–3 (the same block at every point); window 8 is
  the bias row; window 9 is the output, one row block per point. An input window's staging buffer holds its
  block of the array at every point, whether or not that point fetched it.
-/
import proofs.«126828_g35725537968819_cont_8to1_b_281_5_alg».proof.Proof.Gen.Kernel.Launch
import proofs.«126828_g35725537968819_cont_8to1_b_281_5_alg».proof.Proof.Gen.Kernel.Points
import Idealize.ShloMosaic.Lib.Pipeline.FrameBody

set_option maxRecDepth 16384

noncomputable section

namespace Cert.Kernel.Hand

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the region -/

/-- Core `c`'s buffers when the region is entered: the launch contents after the transpose and the reshape. -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

/-- @main is the two host operations, then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- Neither host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.unary_writes, StableHlo.reshape_writes, Finset.mem_singleton]
    repeat' apply And.intro
    all_goals exact StableHlo.devRef_ne_of_ne (by decide)))
/-- Neither host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.Forall, StableHlo.unary_writes, StableHlo.reshape_writes, Finset.mem_singleton]
    repeat' apply And.intro
    all_goals exact StableHlo.devRef_ne_of_ne (by decide)))
/-- Neither host operation before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.Forall, StableHlo.unary_writes, StableHlo.reshape_writes, Finset.mem_singleton]
    repeat' apply And.intro
    all_goals exact StableHlo.devRef_ne_of_ne (by decide)))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not (where it is not
    fetched its block index has not moved), for any proof data over the region-entry arrays whose body leaves the
    block in place. -/
theorem before_in0 {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not (where it is not
    fetched its block index has not moved), for any proof data over the region-entry arrays whose body leaves the
    block in place. -/
theorem before_in1 {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not (where it is not
    fetched its block index has not moved), for any proof data over the region-entry arrays whose body leaves the
    block in place. -/
theorem before_in2 {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not (where it is not
    fetched its block index has not moved), for any proof data over the region-entry arrays whose body leaves the
    block in place. -/
theorem before_in3 {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not (where it is not
    fetched its block index has not moved), for any proof data over the region-entry arrays whose body leaves the
    block in place. -/
theorem before_in4 {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's current staging buffer holds its block at every point, fetched there or not (where it is not
    fetched its block index has not moved), for any proof data over the region-entry arrays whose body leaves the
    block in place. -/
theorem before_in5 {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
/-- Input window 6's current staging buffer holds its block at every point, fetched there or not (where it is not
    fetched its block index has not moved), for any proof data over the region-entry arrays whose body leaves the
    block in place. -/
theorem before_in6 {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
/-- Input window 7's current staging buffer holds its block at every point, fetched there or not (where it is not
    fetched its block index has not moved), for any proof data over the region-entry arrays whose body leaves the
    block in place. -/
theorem before_in7 {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
/-- Input window 8's current staging buffer holds its block at every point, fetched there or not (where it is not
    fetched its block index has not moved), for any proof data over the region-entry arrays whose body leaves the
    block in place. -/
theorem before_in8 {c : Dev nD} (dat : Dat τ (Elt F) Unit ℕ (UR sig nD τ) ℕ cfg0 c) (hA : dat.A 8 = V m c (Pipeline.arrRef spec0 8))
    (hafter : ∀ t, dat.after 8 t = iblk m c 8 t) (t : Fin cfg0.N) (d) : dat.before 8 t d = iblk m c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)

end Cert.Kernel.Hand

end
-- ==== Proof.Kernel.Run.lean ====
/-
  The kernel region's proof data, its body obligation, and the run of the whole program.
  After the body at point `t` each input buffer still holds its block and the output buffer holds `blockOut` of
  the nine input blocks. Nothing is carried between points, so the region's invariant is only the core's scoped
  buffers that are no staging buffer (there are none). The tokens `x` and the transposed weight are each read
  through FOUR input windows: each of those windows holds its array at one quarter of the full share (the halves
  of the halves), which is all a read needs; the bias row and the output are held whole. At the launch each
  shared array's full share is dealt into its four quarters; at the end every array is read back — an input at
  its region-entry contents, the output at those contents overwritten block by block by what the body left.
-/
import proofs.«126828_g35725537968819_cont_8to1_b_281_5_alg».proof.Proof.Kernel.Body
import proofs.«126828_g35725537968819_cont_8to1_b_281_5_alg».proof.Proof.Kernel.Entry

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The proof data -/

/-- The one pipeline's proof data on core `c`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => blockOut (iblk m c 0 t) (iblk m c 1 t) (iblk m c 2 t) (iblk m c 3 t) (iblk m c 4 t) (iblk m c 5 t) (iblk m c 6 t) (iblk m c 7 t) (iblk m c 8 t)
  Φ _ := Pipeline.scopedRest spec0 c
  q w := match w with
    | ⟨0, _⟩ => fullShare.left.left
    | ⟨1, _⟩ => fullShare.left.right
    | ⟨2, _⟩ => fullShare.right.left
    | ⟨3, _⟩ => fullShare.right.right
    | ⟨4, _⟩ => fullShare.left.left
    | ⟨5, _⟩ => fullShare.left.right
    | ⟨6, _⟩ => fullShare.right.left
    | ⟨7, _⟩ => fullShare.right.right
    | ⟨8, _⟩ => fullShare
    | ⟨9, _⟩ => fullShare
  owed _ := 0

theorem A_eq (c : Dev nD) (w : Fin cfg0.W) : (dats m 0 c).A w = V m c (Pipeline.arrRef spec0 w) := by
  dsimp only [dats]

theorem after_in0 (c : Dev nD) (t : Fin cfg0.N) : (dats m 0 c).after 0 t = iblk m c 0 t := by dsimp only [dats]
theorem after_in1 (c : Dev nD) (t : Fin cfg0.N) : (dats m 0 c).after 1 t = iblk m c 1 t := by dsimp only [dats]
theorem after_in2 (c : Dev nD) (t : Fin cfg0.N) : (dats m 0 c).after 2 t = iblk m c 2 t := by dsimp only [dats]
theorem after_in3 (c : Dev nD) (t : Fin cfg0.N) : (dats m 0 c).after 3 t = iblk m c 3 t := by dsimp only [dats]
theorem after_in4 (c : Dev nD) (t : Fin cfg0.N) : (dats m 0 c).after 4 t = iblk m c 4 t := by dsimp only [dats]
theorem after_in5 (c : Dev nD) (t : Fin cfg0.N) : (dats m 0 c).after 5 t = iblk m c 5 t := by dsimp only [dats]
theorem after_in6 (c : Dev nD) (t : Fin cfg0.N) : (dats m 0 c).after 6 t = iblk m c 6 t := by dsimp only [dats]
theorem after_in7 (c : Dev nD) (t : Fin cfg0.N) : (dats m 0 c).after 7 t = iblk m c 7 t := by dsimp only [dats]
theorem after_in8 (c : Dev nD) (t : Fin cfg0.N) : (dats m 0 c).after 8 t = iblk m c 8 t := by dsimp only [dats]
theorem after_out (c : Dev nD) (t : Fin cfg0.N) : (dats m 0 c).after 9 t
    = blockOut (iblk m c 0 t) (iblk m c 1 t) (iblk m c 2 t) (iblk m c 3 t) (iblk m c 4 t) (iblk m c 5 t) (iblk m c 6 t) (iblk m c 7 t) (iblk m c 8 t) := by
  dsimp only [dats]

theorem before0 (c : Dev nD) (t : Fin cfg0.N) (d) : (dats m 0 c).before 0 t d = iblk m c 0 t :=
  before_in0 m (dats m 0 c) (A_eq m c 0) (after_in0 m c) t d
theorem before1 (c : Dev nD) (t : Fin cfg0.N) (d) : (dats m 0 c).before 1 t d = iblk m c 1 t :=
  before_in1 m (dats m 0 c) (A_eq m c 1) (after_in1 m c) t d
theorem before2 (c : Dev nD) (t : Fin cfg0.N) (d) : (dats m 0 c).before 2 t d = iblk m c 2 t :=
  before_in2 m (dats m 0 c) (A_eq m c 2) (after_in2 m c) t d
theorem before3 (c : Dev nD) (t : Fin cfg0.N) (d) : (dats m 0 c).before 3 t d = iblk m c 3 t :=
  before_in3 m (dats m 0 c) (A_eq m c 3) (after_in3 m c) t d
theorem before4 (c : Dev nD) (t : Fin cfg0.N) (d) : (dats m 0 c).before 4 t d = iblk m c 4 t :=
  before_in4 m (dats m 0 c) (A_eq m c 4) (after_in4 m c) t d
theorem before5 (c : Dev nD) (t : Fin cfg0.N) (d) : (dats m 0 c).before 5 t d = iblk m c 5 t :=
  before_in5 m (dats m 0 c) (A_eq m c 5) (after_in5 m c) t d
theorem before6 (c : Dev nD) (t : Fin cfg0.N) (d) : (dats m 0 c).before 6 t d = iblk m c 6 t :=
  before_in6 m (dats m 0 c) (A_eq m c 6) (after_in6 m c) t d
theorem before7 (c : Dev nD) (t : Fin cfg0.N) (d) : (dats m 0 c).before 7 t d = iblk m c 7 t :=
  before_in7 m (dats m 0 c) (A_eq m c 7) (after_in7 m c) t d
theorem before8 (c : Dev nD) (t : Fin cfg0.N) (d) : (dats m 0 c).before 8 t d = iblk m c 8 t :=
  before_in8 m (dats m 0 c) (A_eq m c 8) (after_in8 m c) t d

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t))

/-- The body at any point: the inputs' buffers hold their blocks, so the body's triple applies; the invariant and
    what the core owes pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5, before6, before7, before8]
  rw [show (dats m 0 c).Φ t.succ = (dats m 0 c).Φ t.castSucc from rfl,
    show (dats m 0 c).owesAt () t.succ = (dats m 0 c).owesAt () t.castSucc from rfl,
    after_in0, after_in1, after_in2, after_in3, after_in4, after_in5, after_in6, after_in7, after_in8, after_out]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (sound_kernel c Set.univ (grid0.coords t) _ _ _ _ _ _ _ _ _ _ _ _ _ _ _ _ _ _ _ _
    (iblk m c 0 t) (iblk m c 1 t) (iblk m c 2 t) (iblk m c 3 t) (iblk m c 4 t) (iblk m c 5 t) (iblk m c 6 t) (iblk m c 7 t) (iblk m c 8 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  iintro ⟨H0, H1, H2, H3, H4, H5, H6, H7, H8, H9⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The body obligation, at every point. -/
theorem body_obligation (c : Dev nD) : BodyObligation (dats (F := F) m 0 c) (defs₀ (F := F)) Variants.none () Set.univ := fun t => by
  rw [bigSep_W0, bigSep_W0]
  exact sound_body m c t

/-! ## Dealing the shared arrays' shares -/

/-- A buffer held whole at the full share is held at its four quarters. -/
theorem quarters (ℓ : Loc nD τ sig) (f : Buf (Elt F) ℓ) :
    (ℓ ↦{fullShare} f : sProp 𝕄) ⊢ iprop((ℓ ↦{fullShare.left.left} f) ∗ (ℓ ↦{fullShare.left.right} f)
      ∗ (ℓ ↦{fullShare.right.left} f) ∗ (ℓ ↦{fullShare.right.right} f)) := by
  iintro H
  ihave H2 := (pointsTo_share (PosShare.mem_left_op_right fullShare)).1 $$ H
  icases H2 with ⟨Hl, Hr⟩
  ihave Hl2 := (pointsTo_share (PosShare.mem_left_op_right fullShare.left)).1 $$ Hl
  ihave Hr2 := (pointsTo_share (PosShare.mem_left_op_right fullShare.right)).1 $$ Hr
  icases Hl2 with ⟨Hll, Hlr⟩
  icases Hr2 with ⟨Hrl, Hrr⟩
  isplitl [Hll]; · iexact Hll
  isplitl [Hlr]; · iexact Hlr
  isplitl [Hrl]; · iexact Hrl
  iexact Hrr

/-- Each window's share of its array: a quarter for the eight windows on the two shared arrays, the whole for the
    bias row and for the output. -/
theorem share0 (c : Dev nD) : (dats m 0 c).share 0 = fullShare.left.left := by unfold Dat.share; rfl
theorem share1 (c : Dev nD) : (dats m 0 c).share 1 = fullShare.left.right := by unfold Dat.share; rfl
theorem share2 (c : Dev nD) : (dats m 0 c).share 2 = fullShare.right.left := by unfold Dat.share; rfl
theorem share3 (c : Dev nD) : (dats m 0 c).share 3 = fullShare.right.right := by unfold Dat.share; rfl
theorem share4 (c : Dev nD) : (dats m 0 c).share 4 = fullShare.left.left := by unfold Dat.share; rfl
theorem share5 (c : Dev nD) : (dats m 0 c).share 5 = fullShare.left.right := by unfold Dat.share; rfl
theorem share6 (c : Dev nD) : (dats m 0 c).share 6 = fullShare.right.left := by unfold Dat.share; rfl
theorem share7 (c : Dev nD) : (dats m 0 c).share 7 = fullShare.right.right := by unfold Dat.share; rfl
theorem share8 (c : Dev nD) : (dats m 0 c).share 8 = fullShare := by unfold Dat.share; rfl
theorem share9 (c : Dev nD) : (dats m 0 c).share 9 = fullShare := by unfold Dat.share; rfl

/-- Before any write-back a window's array holds its region-entry contents. -/
theorem arrAt_zero (c : Dev nD) (w : Fin cfg0.W) : (dats m 0 c).arrAt w 0 = V m c (Pipeline.arrRef spec0 w) := A_eq m c w

/-- The distinct buffers behind the ten windows' arrays are four: the tokens, the transposed weight, the bias row
    and the output. -/
theorem arrBufs_eq (c : Dev nD) (W : (b : Ref sig .tc) → Buf (Elt F) ((c : Thread nD τ).loc b)) :
    (Pipeline.arrBufs (Ix := Unit) (Name := ℕ) (U := UR sig nD τ) (Lvl := ℕ) spec0 c W : sProp 𝕄)
      = iprop((((c : Thread nD τ).loc main_arg0) ↦{fullShare} W main_arg0) ∗ (((c : Thread nD τ).loc main_v0) ↦{fullShare} W main_v0)
          ∗ (((c : Thread nD τ).loc main_v1) ↦{fullShare} W main_v1) ∗ (((c : Thread nD τ).loc main_v2) ↦{fullShare} W main_v2)) := by
  unfold Pipeline.arrBufs
  exact bigSep_eq_bigSepL_of_eq [main_arg0, main_v0, main_v1, main_v2] (by decide) (by decide) _

/-- The four buffers behind the ten windows' arrays, each whole at the region-entry contents, are the proof data's
    arrays at entry: the tokens and the transposed weight dealt in quarters to their four windows each. -/
theorem arrays_of_buffers (c : Dev nD) :
    (Pipeline.arrBufs (Ix := Unit) (Name := ℕ) (U := UR sig nD τ) (Lvl := ℕ) spec0 c (V m c) : sProp 𝕄)
      ⊢ (dats m 0 c).arrays ((dats m 0 c).arrAt · 0) := by
  rw [arrBufs_eq]
  unfold Dat.arrays
  rw [bigSep_W0]
  simp only [View.set_whole, arrAt_zero, share0, share1, share2, share3, share4, share5, share6, share7, share8, share9]
  iintro ⟨Hx, Hw, Hb, Ho⟩
  ihave Hx4 := (quarters _ _) $$ Hx
  icases Hx4 with ⟨Hx0, Hx1, Hx2, Hx3⟩
  ihave Hw4 := (quarters _ _) $$ Hw
  icases Hw4 with ⟨Hw0, Hw1, Hw2, Hw3⟩
  isplitl [Hx0]; · iexact Hx0
  isplitl [Hx1]; · iexact Hx1
  isplitl [Hx2]; · iexact Hx2
  isplitl [Hx3]; · iexact Hx3
  isplitl [Hw0]; · iexact Hw0
  isplitl [Hw1]; · iexact Hw1
  isplitl [Hw2]; · iexact Hw2
  isplitl [Hw3]; · iexact Hw3
  isplitl [Hb]; · iexact Hb
  iexact Ho

/-! ## The run -/

/-- The launch element: every staging cell's owner at round 0 and a duty token for every transfer the pipeline issues. -/
def u₀ : UR sig nD τ := initOf (Pipeline.cells (cfgs) cellOf_inj) (Pipeline.launchToks (cfgs) cellOf_inj)

set_option backward.isDefEq.respectTransparency.types false in
/-- At the compiled mesh, for any values, from any memory with zero counters: every weakly fair execution of @main
    terminates, and every final state has every window's array at what the proof data compute after the last
    write-back and every other unscoped buffer as the region found it. -/
theorem run_main : θ_run defs (onTc (τ := τ) (main (F := F))) (s₀ m ρ) (Pipeline.FramePost cfgs (dats m) 0 (V m)) :=
  Pipeline.θ_run_region_noSem_shared cfgs (dats m) () cellOf_inj (0 : Fin 1) winFacts₀0 emb₁ defs₀ Variants.none m ρ main
    (hbody := fun c => (body_obligation m c).loose) (hne := block_pos0) (harr := arr_whole0) (hstage := stage_whole0)
    (howed := fun _ _ => rfl) (u₀ := u₀) (hu₀ := by unfold u₀; exact .rfl)
    (V := V m) (hmain := hmain m Variants.none) (hsplit := arrays_of_buffers m)
    (X := fun _ => iprop(emp)) (Y := fun _ => iprop(emp))
    (Z := fun c => Pipeline.unscopedRest (Ix := Unit) (Name := ℕ) (U := UR sig nD τ) (Lvl := ℕ) spec0 c (V m c))
    (hX := fun c => by iintro H; isplitr; · iempintro
                       iexact H)
    (hin := fun c => by
      rw [show (dats m 0 c).Φ 0 = Pipeline.scopedRest spec0 c from rfl]
      iintro ⟨-, H⟩; iexact H)
    (hout := fun c => by
      rw [show (dats m 0 c).Φ (Fin.last (cfgs 0).N) = Pipeline.scopedRest spec0 c from rfl]
      iintro H; isplitr; · iempintro
      iexact H)
    (QY := fun c s => ∀ b ∈ Pipeline.restRefs sig spec0, s.mem ((c.tc : Thread nD τ).loc b) = V m c b)
    (hY := fun c s' => by
      iintro ⟨-, HU, HSI⟩
      unfold Pipeline.unscopedRest
      imodintro
      iapply (pointsTo_read_all (Pipeline.restRefs sig spec0) (fun b => (c.tc : Thread nD τ).loc b) (V m c) s')
      isplitl [HU] <;> iassumption)
    (hQ := fun s h c => ⟨(h c).1, (h c).2⟩)

/-- info: 'Cert.Kernel.Hand.run_main' depends on axioms: [propext, Classical.choice, Quot.sound] -/
#guard_msgs in #print axioms run_main

/-- THE FRAME: every execution terminates, faults nowhere, and leaves the three argument arrays as launched. The
    tokens are an input window's array (never written); the weight and the bias are no window's array and bypass
    the region; no host operation writes any of the three. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨((h c).1 0).trans (((dats m 0 c).arrAt_in 0 rfl _).trans ((A_eq m c 0).trans (V_main_arg0 m c))),
      ((h c).2 main_arg1 (Pipeline.mem_restRefs_of main_arg1 (by decide) (by decide))).trans (V_main_arg1 m c),
      ((h c).2 main_arg2 (Pipeline.mem_restRefs_of main_arg2 (by decide) (by decide))).trans (V_main_arg2 m c)⟩) (run_main m ρ)

end Cert.Kernel.Hand

end
-- ==== Proof.KernelIdeal.Body.lean ====
/-
  What one grid point's body does to its ten staging buffers. The body reads the four column chunks of a
  token block (512 × 1024 each), the four matching row chunks of the transposed weight (1024 × 64 each) and the
  bias row (1 × 64), and overwrites the whole 512 × 64 output buffer with ONE store whose value is a pure
  function of those nine loads (the four partial products added left to right, plus the broadcast bias). It
  also loads the output buffer before storing into it, a value it never uses. So, whatever the output buffer
  held, afterwards it holds that function of the nine inputs, and the nine input buffers are as they were.
-/
import proofs.«126828_g35725537968819_cont_8to1_b_281_5_alg».proof.Proof.Gen.KernelIdeal.Launch
import proofs.«126828_g35725537968819_cont_8to1_b_281_5_alg».proof.Proof.Gen.KernelIdeal.Skeleton
import proofs.«126828_g35725537968819_cont_8to1_b_281_5_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's four whole-buffer rectangles -/

/-- A token block's column chunk, whole. -/
abbrev rTok : Rect S512x1024 := Rect.unit (s := S512x1024) ![0, 0] S512x1024.size inb_S512x1024_S512x1024_0_0
/-- A row chunk of the transposed weight, whole. -/
abbrev rWgt : Rect S1024x64 := Rect.unit (s := S1024x64) ![0, 0] S1024x64.size inb_S1024x64_S1024x64_0_0
/-- The bias row, whole. -/
abbrev rBias : Rect S1x64 := Rect.unit (s := S1x64) ![0, 0] S1x64.size inb_S1x64_S1x64_0_0
/-- The output block, whole. -/
abbrev rOut : Rect S512x64 := Rect.unit (s := S512x64) ![0, 0] S512x64.size inb_S512x64_S512x64_0_0

/-! ## What the body leaves in the output buffer -/

/-- The output buffer after the body, from the nine input buffers' contents: its one store, which covers it. -/
def blockOut (x0 x1 x2 x3 : Vec F S512x1024 .f32) (w0 w1 w2 w3 : Vec F S1024x64 .f32) (b : Vec F S1x64 .f32) :
    Vec F S512x64 .f32 :=
  View.canon [⟨rOut, k0_pay1 (View.ld x0 rTok) (View.ld w0 rWgt) (View.ld x1 rTok) (View.ld w1 rWgt)
    (View.ld x2 rTok) (View.ld w2 rWgt) (View.ld x3 rTok) (View.ld w3 rWgt) (View.ld b rBias)⟩]

/-- The one store fills the buffer. -/
theorem cover_out (p0 : Vec F S512x64 .f32) (y : S512x64.Idx) :
    ∃ pc ∈ ([⟨rOut, p0⟩] : List (View.Piece (Elt F) S512x64 .f32)), y ∈ pc.1.set :=
  View.cover_of_tiled [⟨rOut, p0⟩] S512x64.size (by rfl) y

/-! ## The body's triple -/

set_option maxHeartbeats 2000000 in
/-- The body on whole staging memrefs — the nine inputs' at read contents, the output's at anything — runs to a
    state that holds the inputs' as they were and the output's at `blockOut` of them. -/
theorem sound_kernel (c : Dev nD) (E : Set ℕ) (i : grid0.Coords)
    (a1 : Memref sig .tc .vmem S512x1024 .f32) (h1 : a1.IsWhole) (a2 : Memref sig .tc .vmem S512x1024 .f32) (h2 : a2.IsWhole)
    (a3 : Memref sig .tc .vmem S512x1024 .f32) (h3 : a3.IsWhole) (a4 : Memref sig .tc .vmem S512x1024 .f32) (h4 : a4.IsWhole)
    (a5 : Memref sig .tc .vmem S1024x64 .f32) (h5 : a5.IsWhole) (a6 : Memref sig .tc .vmem S1024x64 .f32) (h6 : a6.IsWhole)
    (a7 : Memref sig .tc .vmem S1024x64 .f32) (h7 : a7.IsWhole) (a8 : Memref sig .tc .vmem S1024x64 .f32) (h8 : a8.IsWhole)
    (a9 : Memref sig .tc .vmem S1x64 .f32) (h9 : a9.IsWhole) (a10 : Memref sig .tc .vmem S512x64 .f32) (h10 : a10.IsWhole)
    (x0 x1 x2 x3 : Vec F S512x1024 .f32) (w0 w1 w2 w3 : Vec F S1024x64 .f32) (b : Vec F S1x64 .f32) (K : PUnit → sProp 𝕄) :
    iprop(owns (c : Thread nD τ) a1 fullShare x0 ∗ owns (c : Thread nD τ) a2 fullShare x1 ∗ owns (c : Thread nD τ) a3 fullShare x2
        ∗ owns (c : Thread nD τ) a4 fullShare x3 ∗ owns (c : Thread nD τ) a5 fullShare w0 ∗ owns (c : Thread nD τ) a6 fullShare w1
        ∗ owns (c : Thread nD τ) a7 fullShare w2 ∗ owns (c : Thread nD τ) a8 fullShare w3 ∗ owns (c : Thread nD τ) a9 fullShare b
        ∗ (∃ d, owns (c : Thread nD τ) a10 fullShare d)
        ∗ (iprop(owns (c : Thread nD τ) a1 fullShare x0 ∗ owns (c : Thread nD τ) a2 fullShare x1 ∗ owns (c : Thread nD τ) a3 fullShare x2
            ∗ owns (c : Thread nD τ) a4 fullShare x3 ∗ owns (c : Thread nD τ) a5 fullShare w0 ∗ owns (c : Thread nD τ) a6 fullShare w1
            ∗ owns (c : Thread nD τ) a7 fullShare w2 ∗ owns (c : Thread nD τ) a8 fullShare w3 ∗ owns (c : Thread nD τ) a9 fullShare b
            ∗ owns (c : Thread nD τ) a10 fullShare (blockOut x0 x1 x2 x3 w0 w1 w2 w3 b)) -∗ K ⟨⟩))
      ⊢ wp frame (wpE (defs₀ (F := F)) Variants.none c none) E
          (cc0__router_block i a1 h1 a2 h2 a3 h3 a4 h4 a5 h5 a6 h6 a7 h7 a8 h8 a9 h9 a10 h10) K := by
  simp only [cc0__router_block_eq_skeleton]; unfold cc0__router_block_skel
  unfold owns
  iintro ⟨⟨%f1, %e1, H1⟩, ⟨%f2, %e2, H2⟩, ⟨%f3, %e3, H3⟩, ⟨%f4, %e4, H4⟩, ⟨%f5, %e5, H5⟩, ⟨%f6, %e6, H6⟩,
    ⟨%f7, %e7, H7⟩, ⟨%f8, %e8, H8⟩, ⟨%f9, %e9, H9⟩, ⟨%d10, %f10, -, H10⟩, Hk⟩
  subst e1 e2 e3 e4 e5 e6 e7 e8 e9
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  iexists _; isplitr
  swap; · iexact H10
  ipureintro
  exact View.read_writes_eq_canon _ _ _ (cover_out _)

end Cert.KernelIdeal.Hand

end
-- ==== Proof.KernelIdeal.Entry.lean ====
/-
  The program up to its one kernel region, and what the region's windows see. Before the region the host
  transposes the weight (64 × 4096 to 4096 × 64) and reshapes the bias (64 to 1 × 64); neither writes an argument
  array. Windows 0–3 read the SAME array, the tokens `x`, at column chunks 0–3 of the point's row block; windows
  4–7 read the SAME array, the transposed weight, at row chunks 0–3 (the same block at every point); window 8 is
  the bias row; window 9 is the output, one row block per point. An input window's staging buffer holds its
  block of the array at every point, whether or not that point fetched it.
-/
import proofs.«126828_g35725537968819_cont_8to1_b_281_5_alg».proof.Proof.Gen.KernelIdeal.Launch
import proofs.«126828_g35725537968819_cont_8to1_b_281_5_alg».proof.Proof.Gen.KernelIdeal.Points
import Idealize.ShloMosaic.Lib.Pipeline.FrameBody

set_option maxRecDepth 16384

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the region -/

/-- Core `c`'s buffers when the region is entered: the launch contents after the transpose and the reshape. -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

/-- @main is the two host operations, then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- Neither host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.unary_writes, StableHlo.reshape_writes, Finset.mem_singleton]
    repeat' apply And.intro
    all_goals exact StableHlo.devRef_ne_of_ne (by decide)))
/-- Neither host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.Forall, StableHlo.unary_writes, StableHlo.reshape_writes, Finset.mem_singleton]
    repeat' apply And.intro
    all_goals exact StableHlo.devRef_ne_of_ne (by decide)))
/-- Neither host operation before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.Forall, StableHlo.unary_writes, StableHlo.reshape_writes, Finset.mem_singleton]
    repeat' apply And.intro
    all_goals exact StableHlo.devRef_ne_of_ne (by decide)))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not (where it is not
    fetched its block index has not moved), for any proof data over the region-entry arrays whose body leaves the
    block in place. -/
theorem before_in0 {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not (where it is not
    fetched its block index has not moved), for any proof data over the region-entry arrays whose body leaves the
    block in place. -/
theorem before_in1 {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not (where it is not
    fetched its block index has not moved), for any proof data over the region-entry arrays whose body leaves the
    block in place. -/
theorem before_in2 {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not (where it is not
    fetched its block index has not moved), for any proof data over the region-entry arrays whose body leaves the
    block in place. -/
theorem before_in3 {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not (where it is not
    fetched its block index has not moved), for any proof data over the region-entry arrays whose body leaves the
    block in place. -/
theorem before_in4 {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's current staging buffer holds its block at every point, fetched there or not (where it is not
    fetched its block index has not moved), for any proof data over the region-entry arrays whose body leaves the
    block in place. -/
theorem before_in5 {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
/-- Input window 6's current staging buffer holds its block at every point, fetched there or not (where it is not
    fetched its block index has not moved), for any proof data over the region-entry arrays whose body leaves the
    block in place. -/
theorem before_in6 {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
/-- Input window 7's current staging buffer holds its block at every point, fetched there or not (where it is not
    fetched its block index has not moved), for any proof data over the region-entry arrays whose body leaves the
    block in place. -/
theorem before_in7 {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
/-- Input window 8's current staging buffer holds its block at every point, fetched there or not (where it is not
    fetched its block index has not moved), for any proof data over the region-entry arrays whose body leaves the
    block in place. -/
theorem before_in8 {c : Dev nD} (dat : Dat τ (Elt F) Unit ℕ (UR sig nD τ) ℕ cfg0 c) (hA : dat.A 8 = V m c (Pipeline.arrRef spec0 8))
    (hafter : ∀ t, dat.after 8 t = iblk m c 8 t) (t : Fin cfg0.N) (d) : dat.before 8 t d = iblk m c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)

end Cert.KernelIdeal.Hand

end
-- ==== Proof.KernelIdeal.Run.lean ====
/-
  The kernel region's proof data, its body obligation, and the run of the whole program.
  After the body at point `t` each input buffer still holds its block and the output buffer holds `blockOut` of
  the nine input blocks. Nothing is carried between points, so the region's invariant is only the core's scoped
  buffers that are no staging buffer (there are none). The tokens `x` and the transposed weight are each read
  through FOUR input windows: each of those windows holds its array at one quarter of the full share (the halves
  of the halves), which is all a read needs; the bias row and the output are held whole. At the launch each
  shared array's full share is dealt into its four quarters; at the end every array is read back — an input at
  its region-entry contents, the output at those contents overwritten block by block by what the body left.
-/
import proofs.«126828_g35725537968819_cont_8to1_b_281_5_alg».proof.Proof.KernelIdeal.Body
import proofs.«126828_g35725537968819_cont_8to1_b_281_5_alg».proof.Proof.KernelIdeal.Entry

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The proof data -/

/-- The one pipeline's proof data on core `c`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => blockOut (iblk m c 0 t) (iblk m c 1 t) (iblk m c 2 t) (iblk m c 3 t) (iblk m c 4 t) (iblk m c 5 t) (iblk m c 6 t) (iblk m c 7 t) (iblk m c 8 t)
  Φ _ := Pipeline.scopedRest spec0 c
  q w := match w with
    | ⟨0, _⟩ => fullShare.left.left
    | ⟨1, _⟩ => fullShare.left.right
    | ⟨2, _⟩ => fullShare.right.left
    | ⟨3, _⟩ => fullShare.right.right
    | ⟨4, _⟩ => fullShare.left.left
    | ⟨5, _⟩ => fullShare.left.right
    | ⟨6, _⟩ => fullShare.right.left
    | ⟨7, _⟩ => fullShare.right.right
    | ⟨8, _⟩ => fullShare
    | ⟨9, _⟩ => fullShare
  owed _ := 0

theorem A_eq (c : Dev nD) (w : Fin cfg0.W) : (dats m 0 c).A w = V m c (Pipeline.arrRef spec0 w) := by
  dsimp only [dats]

theorem after_in0 (c : Dev nD) (t : Fin cfg0.N) : (dats m 0 c).after 0 t = iblk m c 0 t := by dsimp only [dats]
theorem after_in1 (c : Dev nD) (t : Fin cfg0.N) : (dats m 0 c).after 1 t = iblk m c 1 t := by dsimp only [dats]
theorem after_in2 (c : Dev nD) (t : Fin cfg0.N) : (dats m 0 c).after 2 t = iblk m c 2 t := by dsimp only [dats]
theorem after_in3 (c : Dev nD) (t : Fin cfg0.N) : (dats m 0 c).after 3 t = iblk m c 3 t := by dsimp only [dats]
theorem after_in4 (c : Dev nD) (t : Fin cfg0.N) : (dats m 0 c).after 4 t = iblk m c 4 t := by dsimp only [dats]
theorem after_in5 (c : Dev nD) (t : Fin cfg0.N) : (dats m 0 c).after 5 t = iblk m c 5 t := by dsimp only [dats]
theorem after_in6 (c : Dev nD) (t : Fin cfg0.N) : (dats m 0 c).after 6 t = iblk m c 6 t := by dsimp only [dats]
theorem after_in7 (c : Dev nD) (t : Fin cfg0.N) : (dats m 0 c).after 7 t = iblk m c 7 t := by dsimp only [dats]
theorem after_in8 (c : Dev nD) (t : Fin cfg0.N) : (dats m 0 c).after 8 t = iblk m c 8 t := by dsimp only [dats]
theorem after_out (c : Dev nD) (t : Fin cfg0.N) : (dats m 0 c).after 9 t
    = blockOut (iblk m c 0 t) (iblk m c 1 t) (iblk m c 2 t) (iblk m c 3 t) (iblk m c 4 t) (iblk m c 5 t) (iblk m c 6 t) (iblk m c 7 t) (iblk m c 8 t) := by
  dsimp only [dats]

theorem before0 (c : Dev nD) (t : Fin cfg0.N) (d) : (dats m 0 c).before 0 t d = iblk m c 0 t :=
  before_in0 m (dats m 0 c) (A_eq m c 0) (after_in0 m c) t d
theorem before1 (c : Dev nD) (t : Fin cfg0.N) (d) : (dats m 0 c).before 1 t d = iblk m c 1 t :=
  before_in1 m (dats m 0 c) (A_eq m c 1) (after_in1 m c) t d
theorem before2 (c : Dev nD) (t : Fin cfg0.N) (d) : (dats m 0 c).before 2 t d = iblk m c 2 t :=
  before_in2 m (dats m 0 c) (A_eq m c 2) (after_in2 m c) t d
theorem before3 (c : Dev nD) (t : Fin cfg0.N) (d) : (dats m 0 c).before 3 t d = iblk m c 3 t :=
  before_in3 m (dats m 0 c) (A_eq m c 3) (after_in3 m c) t d
theorem before4 (c : Dev nD) (t : Fin cfg0.N) (d) : (dats m 0 c).before 4 t d = iblk m c 4 t :=
  before_in4 m (dats m 0 c) (A_eq m c 4) (after_in4 m c) t d
theorem before5 (c : Dev nD) (t : Fin cfg0.N) (d) : (dats m 0 c).before 5 t d = iblk m c 5 t :=
  before_in5 m (dats m 0 c) (A_eq m c 5) (after_in5 m c) t d
theorem before6 (c : Dev nD) (t : Fin cfg0.N) (d) : (dats m 0 c).before 6 t d = iblk m c 6 t :=
  before_in6 m (dats m 0 c) (A_eq m c 6) (after_in6 m c) t d
theorem before7 (c : Dev nD) (t : Fin cfg0.N) (d) : (dats m 0 c).before 7 t d = iblk m c 7 t :=
  before_in7 m (dats m 0 c) (A_eq m c 7) (after_in7 m c) t d
theorem before8 (c : Dev nD) (t : Fin cfg0.N) (d) : (dats m 0 c).before 8 t d = iblk m c 8 t :=
  before_in8 m (dats m 0 c) (A_eq m c 8) (after_in8 m c) t d

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t))

/-- The body at any point: the inputs' buffers hold their blocks, so the body's triple applies; the invariant and
    what the core owes pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5, before6, before7, before8]
  rw [show (dats m 0 c).Φ t.succ = (dats m 0 c).Φ t.castSucc from rfl,
    show (dats m 0 c).owesAt () t.succ = (dats m 0 c).owesAt () t.castSucc from rfl,
    after_in0, after_in1, after_in2, after_in3, after_in4, after_in5, after_in6, after_in7, after_in8, after_out]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (sound_kernel c Set.univ (grid0.coords t) _ _ _ _ _ _ _ _ _ _ _ _ _ _ _ _ _ _ _ _
    (iblk m c 0 t) (iblk m c 1 t) (iblk m c 2 t) (iblk m c 3 t) (iblk m c 4 t) (iblk m c 5 t) (iblk m c 6 t) (iblk m c 7 t) (iblk m c 8 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  iintro ⟨H0, H1, H2, H3, H4, H5, H6, H7, H8, H9⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The body obligation, at every point. -/
theorem body_obligation (c : Dev nD) : BodyObligation (dats (F := F) m 0 c) (defs₀ (F := F)) Variants.none () Set.univ := fun t => by
  rw [bigSep_W0, bigSep_W0]
  exact sound_body m c t

/-! ## Dealing the shared arrays' shares -/

/-- A buffer held whole at the full share is held at its four quarters. -/
theorem quarters (ℓ : Loc nD τ sig) (f : Buf (Elt F) ℓ) :
    (ℓ ↦{fullShare} f : sProp 𝕄) ⊢ iprop((ℓ ↦{fullShare.left.left} f) ∗ (ℓ ↦{fullShare.left.right} f)
      ∗ (ℓ ↦{fullShare.right.left} f) ∗ (ℓ ↦{fullShare.right.right} f)) := by
  iintro H
  ihave H2 := (pointsTo_share (PosShare.mem_left_op_right fullShare)).1 $$ H
  icases H2 with ⟨Hl, Hr⟩
  ihave Hl2 := (pointsTo_share (PosShare.mem_left_op_right fullShare.left)).1 $$ Hl
  ihave Hr2 := (pointsTo_share (PosShare.mem_left_op_right fullShare.right)).1 $$ Hr
  icases Hl2 with ⟨Hll, Hlr⟩
  icases Hr2 with ⟨Hrl, Hrr⟩
  isplitl [Hll]; · iexact Hll
  isplitl [Hlr]; · iexact Hlr
  isplitl [Hrl]; · iexact Hrl
  iexact Hrr

/-- Each window's share of its array: a quarter for the eight windows on the two shared arrays, the whole for the
    bias row and for the output. -/
theorem share0 (c : Dev nD) : (dats m 0 c).share 0 = fullShare.left.left := by unfold Dat.share; rfl
theorem share1 (c : Dev nD) : (dats m 0 c).share 1 = fullShare.left.right := by unfold Dat.share; rfl
theorem share2 (c : Dev nD) : (dats m 0 c).share 2 = fullShare.right.left := by unfold Dat.share; rfl
theorem share3 (c : Dev nD) : (dats m 0 c).share 3 = fullShare.right.right := by unfold Dat.share; rfl
theorem share4 (c : Dev nD) : (dats m 0 c).share 4 = fullShare.left.left := by unfold Dat.share; rfl
theorem share5 (c : Dev nD) : (dats m 0 c).share 5 = fullShare.left.right := by unfold Dat.share; rfl
theorem share6 (c : Dev nD) : (dats m 0 c).share 6 = fullShare.right.left := by unfold Dat.share; rfl
theorem share7 (c : Dev nD) : (dats m 0 c).share 7 = fullShare.right.right := by unfold Dat.share; rfl
theorem share8 (c : Dev nD) : (dats m 0 c).share 8 = fullShare := by unfold Dat.share; rfl
theorem share9 (c : Dev nD) : (dats m 0 c).share 9 = fullShare := by unfold Dat.share; rfl

/-- Before any write-back a window's array holds its region-entry contents. -/
theorem arrAt_zero (c : Dev nD) (w : Fin cfg0.W) : (dats m 0 c).arrAt w 0 = V m c (Pipeline.arrRef spec0 w) := A_eq m c w

/-- The distinct buffers behind the ten windows' arrays are four: the tokens, the transposed weight, the bias row
    and the output. -/
theorem arrBufs_eq (c : Dev nD) (W : (b : Ref sig .tc) → Buf (Elt F) ((c : Thread nD τ).loc b)) :
    (Pipeline.arrBufs (Ix := Unit) (Name := ℕ) (U := UR sig nD τ) (Lvl := ℕ) spec0 c W : sProp 𝕄)
      = iprop((((c : Thread nD τ).loc main_arg0) ↦{fullShare} W main_arg0) ∗ (((c : Thread nD τ).loc main_v0) ↦{fullShare} W main_v0)
          ∗ (((c : Thread nD τ).loc main_v1) ↦{fullShare} W main_v1) ∗ (((c : Thread nD τ).loc main_v2) ↦{fullShare} W main_v2)) := by
  unfold Pipeline.arrBufs
  exact bigSep_eq_bigSepL_of_eq [main_arg0, main_v0, main_v1, main_v2] (by decide) (by decide) _

/-- The four buffers behind the ten windows' arrays, each whole at the region-entry contents, are the proof data's
    arrays at entry: the tokens and the transposed weight dealt in quarters to their four windows each. -/
theorem arrays_of_buffers (c : Dev nD) :
    (Pipeline.arrBufs (Ix := Unit) (Name := ℕ) (U := UR sig nD τ) (Lvl := ℕ) spec0 c (V m c) : sProp 𝕄)
      ⊢ (dats m 0 c).arrays ((dats m 0 c).arrAt · 0) := by
  rw [arrBufs_eq]
  unfold Dat.arrays
  rw [bigSep_W0]
  simp only [View.set_whole, arrAt_zero, share0, share1, share2, share3, share4, share5, share6, share7, share8, share9]
  iintro ⟨Hx, Hw, Hb, Ho⟩
  ihave Hx4 := (quarters _ _) $$ Hx
  icases Hx4 with ⟨Hx0, Hx1, Hx2, Hx3⟩
  ihave Hw4 := (quarters _ _) $$ Hw
  icases Hw4 with ⟨Hw0, Hw1, Hw2, Hw3⟩
  isplitl [Hx0]; · iexact Hx0
  isplitl [Hx1]; · iexact Hx1
  isplitl [Hx2]; · iexact Hx2
  isplitl [Hx3]; · iexact Hx3
  isplitl [Hw0]; · iexact Hw0
  isplitl [Hw1]; · iexact Hw1
  isplitl [Hw2]; · iexact Hw2
  isplitl [Hw3]; · iexact Hw3
  isplitl [Hb]; · iexact Hb
  iexact Ho

/-! ## The run -/

/-- The launch element: every staging cell's owner at round 0 and a duty token for every transfer the pipeline issues. -/
def u₀ : UR sig nD τ := initOf (Pipeline.cells (cfgs) cellOf_inj) (Pipeline.launchToks (cfgs) cellOf_inj)

set_option backward.isDefEq.respectTransparency.types false in
/-- At the compiled mesh, for any values, from any memory with zero counters: every weakly fair execution of @main
    terminates, and every final state has every window's array at what the proof data compute after the last
    write-back and every other unscoped buffer as the region found it. -/
theorem run_main : θ_run defs (onTc (τ := τ) (main (F := F))) (s₀ m ρ) (Pipeline.FramePost cfgs (dats m) 0 (V m)) :=
  Pipeline.θ_run_region_noSem_shared cfgs (dats m) () cellOf_inj (0 : Fin 1) winFacts₀0 emb₁ defs₀ Variants.none m ρ main
    (hbody := fun c => (body_obligation m c).loose) (hne := block_pos0) (harr := arr_whole0) (hstage := stage_whole0)
    (howed := fun _ _ => rfl) (u₀ := u₀) (hu₀ := by unfold u₀; exact .rfl)
    (V := V m) (hmain := hmain m Variants.none) (hsplit := arrays_of_buffers m)
    (X := fun _ => iprop(emp)) (Y := fun _ => iprop(emp))
    (Z := fun c => Pipeline.unscopedRest (Ix := Unit) (Name := ℕ) (U := UR sig nD τ) (Lvl := ℕ) spec0 c (V m c))
    (hX := fun c => by iintro H; isplitr; · iempintro
                       iexact H)
    (hin := fun c => by
      rw [show (dats m 0 c).Φ 0 = Pipeline.scopedRest spec0 c from rfl]
      iintro ⟨-, H⟩; iexact H)
    (hout := fun c => by
      rw [show (dats m 0 c).Φ (Fin.last (cfgs 0).N) = Pipeline.scopedRest spec0 c from rfl]
      iintro H; isplitr; · iempintro
      iexact H)
    (QY := fun c s => ∀ b ∈ Pipeline.restRefs sig spec0, s.mem ((c.tc : Thread nD τ).loc b) = V m c b)
    (hY := fun c s' => by
      iintro ⟨-, HU, HSI⟩
      unfold Pipeline.unscopedRest
      imodintro
      iapply (pointsTo_read_all (Pipeline.restRefs sig spec0) (fun b => (c.tc : Thread nD τ).loc b) (V m c) s')
      isplitl [HU] <;> iassumption)
    (hQ := fun s h c => ⟨(h c).1, (h c).2⟩)

/-- info: 'Cert.KernelIdeal.Hand.run_main' depends on axioms: [propext, Classical.choice, Quot.sound] -/
#guard_msgs in #print axioms run_main

/-- THE FRAME: every execution terminates, faults nowhere, and leaves the three argument arrays as launched. The
    tokens are an input window's array (never written); the weight and the bias are no window's array and bypass
    the region; no host operation writes any of the three. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨((h c).1 0).trans (((dats m 0 c).arrAt_in 0 rfl _).trans ((A_eq m c 0).trans (V_main_arg0 m c))),
      ((h c).2 main_arg1 (Pipeline.mem_restRefs_of main_arg1 (by decide) (by decide))).trans (V_main_arg1 m c),
      ((h c).2 main_arg2 (Pipeline.mem_restRefs_of main_arg2 (by decide) (by decide))).trans (V_main_arg2 m c)⟩) (run_main m ρ)

end Cert.KernelIdeal.Hand

end
-- ==== Proof.Payload.lean ====
/- The arithmetic of one output block of the router kernel, read at an index of the block, at the
   ideal values: four 1024-deep products of a token chunk with a weight chunk, added left to right,
   plus the bias row. Each product read at (p, q) is the sum over the contraction coordinate k of
   x (p, k) * w (k, q); the bias row broadcast over the 512 rows reads b (0, q). -/
import proofs.«126828_g35725537968819_cont_8to1_b_281_5_alg».proof.Proof.Gen.KernelIdeal.Skeleton
import Idealize.ShloMosaic.PureOps.Ideal.Laws
import Idealize.ShloMosaic.Lib.ValueIdx
import Idealize.ShloMosaic.Lib.Pipeline.Value
import Idealize.ShloMosaic.Lib.ValueLayout

noncomputable section

namespace Cert.KernelIdeal.Pay

open Cert.KernelIdeal Cert.KernelIdeal.Gen Idealize.ShloMosaic Idealize.SL.Sem Idealize.ShloMosaic.ValueIdx

/-! ## The operand indices of one 512x1024 by 1024x64 product

At output index i and contraction index c the left operand is read at (i 0, c) and the right
operand at (c, i 1): one lemma per operand and axis. -/

theorem lhs_chunk_0 (i : S512x64.Idx) (c : dot_S512x1024_S1024x64_S512x64_1_0_0_1_n_n.contr.Idx) :
    (dot_S512x1024_S1024x64_S512x64_1_0_0_1_n_n.lhsIdx i c 0).val = (i 0).val := by
  unfold DotDims.lhsIdx
  rw [dif_neg (show ¬(0 : Fin S512x1024.rank) ∈ dot_S512x1024_S1024x64_S512x64_1_0_0_1_n_n.lhsBatch by decide), dif_pos (show (0 : Fin S512x1024.rank) ∈ dot_S512x1024_S1024x64_S512x64_1_0_0_1_n_n.lhsNonContracting by decide)]
  rfl

theorem lhs_chunk_1 (i : S512x64.Idx) (c : dot_S512x1024_S1024x64_S512x64_1_0_0_1_n_n.contr.Idx) :
    (dot_S512x1024_S1024x64_S512x64_1_0_0_1_n_n.lhsIdx i c 1).val = (c ⟨0, by decide⟩).val :=
  dot_S512x1024_S1024x64_S512x64_1_0_0_1_n_n.lhsIdx_val_of_single rfl i c

theorem rhs_chunk_0 (i : S512x64.Idx) (c : dot_S512x1024_S1024x64_S512x64_1_0_0_1_n_n.contr.Idx) :
    (dot_S512x1024_S1024x64_S512x64_1_0_0_1_n_n.rhsIdx i c 0).val = (c ⟨0, by decide⟩).val :=
  dot_S512x1024_S1024x64_S512x64_1_0_0_1_n_n.rhsIdx_val_of_single rfl i c

theorem rhs_chunk_1 (i : S512x64.Idx) (c : dot_S512x1024_S1024x64_S512x64_1_0_0_1_n_n.contr.Idx) :
    (dot_S512x1024_S1024x64_S512x64_1_0_0_1_n_n.rhsIdx i c 1).val = (i 1).val := by
  unfold DotDims.rhsIdx
  rw [dif_neg (show ¬(1 : Fin S1024x64.rank) ∈ dot_S512x1024_S1024x64_S512x64_1_0_0_1_n_n.rhsBatch by decide), dif_pos (show (1 : Fin S1024x64.rank) ∈ dot_S512x1024_S1024x64_S512x64_1_0_0_1_n_n.rhsNonContracting by decide)]
  rfl

/-! ## One product into the zero accumulator, read at (p, q) -/

/-- A token chunk times a weight chunk, accumulated into zero, read at (p, q): the sum over the
    1024 contraction coordinates of x (p, k) * w (k, q). The shape cast of the weight chunk to its
    own shape is the identity. -/
theorem chunk_apply (x : Vec Ideal S512x1024 .f32) (w : Vec Ideal S1024x64 .f32) (h : S1024x64.ShapeCasts S1024x64)
    (p : Fin 512) (q : Fin 64) :
    matmul (F := Ideal) (φ₁ := .f32) (φ₂ := .f32) dot_S512x1024_S1024x64_S512x64_1_0_0_1_n_n none x (shapeCast S1024x64 w h) (constant (F := Ideal) S512x64 .f32 0x00000000#32) (ix2 p q)
      = ∑ k : Fin 1024, x (ix2 p k) * w (ix2 k q) := by
  rw [shapeCast_self]
  simp only [matmul]
  rw [Ideal.matmul_constant_zero_apply, ← Equiv.sum_comp (ValueIdx.contrEquiv1 dot_S512x1024_S1024x64_S512x64_1_0_0_1_n_n 1024 rfl rfl).symm]
  refine Finset.sum_congr rfl fun k _ => ?_
  have hk := ValueIdx.contrEquiv1_symm_val dot_S512x1024_S1024x64_S512x64_1_0_0_1_n_n 1024 rfl rfl k
  have el : dot_S512x1024_S1024x64_S512x64_1_0_0_1_n_n.lhsIdx (ix2 p q) ((ValueIdx.contrEquiv1 dot_S512x1024_S1024x64_S512x64_1_0_0_1_n_n 1024 rfl rfl).symm k) = ix2 p k := funext fun a => Fin.ext (by
    match a with
    | ⟨0, _⟩ => exact lhs_chunk_0 _ _
    | ⟨1, _⟩ => exact (lhs_chunk_1 _ _).trans hk)
  have er : dot_S512x1024_S1024x64_S512x64_1_0_0_1_n_n.rhsIdx (ix2 p q) ((ValueIdx.contrEquiv1 dot_S512x1024_S1024x64_S512x64_1_0_0_1_n_n 1024 rfl rfl).symm k) = ix2 k q := funext fun a => Fin.ext (by
    match a with
    | ⟨0, _⟩ => exact (rhs_chunk_0 _ _).trans hk
    | ⟨1, _⟩ => exact rhs_chunk_1 _ _)
  rw [el, er]

/-! ## The bias row over the block -/

/-- The bias row, cast to its own shape and broadcast over the 512 rows, reads b (0, q) at (p, q). -/
theorem bias_apply (b : Vec Ideal S1x64 .f32) (h : S1x64.ShapeCasts S1x64) (h' : S1x64.Broadcasts S512x64)
    (p : Fin 512) (q : Fin 64) :
    broadcastTo S512x64 (shapeCast S1x64 b h) h' (ix2 p q) = b (ix2 (0 : Fin 1) q) := by
  rw [shapeCast_self]
  exact broadcastTo_1b_ab_apply b h' p q

/-! ## The block's arithmetic at (p, q) -/

/-- The kernel body's value at (p, q) of the output block: the four chunk sums added left to
    right, then the bias. -/
theorem pay_apply (x0 x1 x2 x3 : Vec Ideal S512x1024 .f32) (w0 w1 w2 w3 : Vec Ideal S1024x64 .f32) (b : Vec Ideal S1x64 .f32)
    (p : Fin 512) (q : Fin 64) :
    k0_pay1 (F := Ideal) x0 w0 x1 w1 x2 w2 x3 w3 b (ix2 p q)
      = ((((∑ k : Fin 1024, x0 (ix2 p k) * w0 (ix2 k q)) + ∑ k : Fin 1024, x1 (ix2 p k) * w1 (ix2 k q))
          + ∑ k : Fin 1024, x2 (ix2 p k) * w2 (ix2 k q)) + ∑ k : Fin 1024, x3 (ix2 p k) * w3 (ix2 k q))
        + b (ix2 (0 : Fin 1) q) := by
  unfold k0_pay1
  rw [addf_apply, addf_apply, addf_apply, addf_apply]
  exact congrArg₂ (· + ·)
    (congrArg₂ (· + ·)
      (congrArg₂ (· + ·)
        (congrArg₂ (· + ·) (chunk_apply x0 w0 _ p q) (chunk_apply x1 w1 _ p q))
        (chunk_apply x2 w2 _ p q))
      (chunk_apply x3 w3 _ p q))
    (bias_apply b _ _ p q)

end Cert.KernelIdeal.Pay

end
-- ==== Proof.SumChunks.lean ====
/-
  A sum over 4096 terms, cut into its four consecutive chunks of 1024 terms, is the chunks' sums added from
  left to right. This is re-association only: it holds in every commutative additive monoid, so in
  particular over the extended reals with no condition on the terms.
-/
import Mathlib.Algebra.BigOperators.Fin

open scoped BigOperators

namespace Cert.Router

/-- The four 1024-term chunks of a 4096-term sum, added left to right, give the whole sum.
  Each step peels the last 1024 indices off an initial segment: 4096 = 3072 + 1024, 3072 = 2048 + 1024,
  2048 = 1024 + 1024. An index of the initial segment keeps its value; the `k`-th index of the tail of a
  segment of length `a` has value `a + k`. -/
theorem sum_four_chunks {M : Type*} [AddCommMonoid M] (f : Fin 4096 → M) :
    (((∑ k : Fin 1024, f ⟨k.val, by omega⟩) + ∑ k : Fin 1024, f ⟨1024 + k.val, by omega⟩)
      + ∑ k : Fin 1024, f ⟨2048 + k.val, by omega⟩) + ∑ k : Fin 1024, f ⟨3072 + k.val, by omega⟩
    = ∑ k : Fin 4096, f k := by
  have e1 : ∑ k : Fin 4096, f k
      = (∑ k : Fin 3072, f ⟨k.val, by omega⟩) + ∑ k : Fin 1024, f ⟨3072 + k.val, by omega⟩ :=
    Fin.sum_univ_add (a := 3072) (b := 1024) f
  have e2 : (∑ k : Fin 3072, f ⟨k.val, by omega⟩)
      = (∑ k : Fin 2048, f ⟨k.val, by omega⟩) + ∑ k : Fin 1024, f ⟨2048 + k.val, by omega⟩ :=
    Fin.sum_univ_add (a := 2048) (b := 1024) (fun k => f ⟨k.val, by omega⟩)
  have e3 : (∑ k : Fin 2048, f ⟨k.val, by omega⟩)
      = (∑ k : Fin 1024, f ⟨k.val, by omega⟩) + ∑ k : Fin 1024, f ⟨1024 + k.val, by omega⟩ :=
    Fin.sum_univ_add (a := 1024) (b := 1024) (fun k => f ⟨k.val, by omega⟩)
  rw [e1, e2, e3]

end Cert.Router
-- ==== Proof.Spec.lean ====
/-
  The router's logits as ONE function of the three argument arrays, index by index over the extended reals:
  token `p`'s logit for expert `q` is the inner product of row `p` of `x` with row `q` of `W` over the 4096
  hidden coordinates, plus `b q`. Both programs compute it: the reference by one 4096-deep contraction against
  `Wᵀ`, the kernel by four 1024-deep contractions of a token block's column chunks against the matching row
  chunks of `Wᵀ`, added left to right. What joins them is re-association of a finite sum (`sum_four_chunks`),
  which holds in any commutative monoid and so needs no finiteness of the inputs.
-/
import Idealize.ShloMosaic.PureOps.Ideal
import Idealize.ShloMosaic.Lib.ValueIdx

noncomputable section

open Idealize.ShloMosaic Idealize.ShloMosaic.ValueIdx
open scoped BigOperators

namespace Cert.Router

/-- tokens × hidden -/
abbrev STok : Shape := ⟨2, ![32768, 4096]⟩
/-- experts × hidden -/
abbrev SWgt : Shape := ⟨2, ![64, 4096]⟩
/-- experts -/
abbrev SBias : Shape := ⟨1, ![64]⟩
/-- tokens × experts -/
abbrev SLog : Shape := ⟨2, ![32768, 64]⟩

/-- Token `p`'s logit for expert `q`. -/
def logitAt (x : STok.Idx → Ideal .f32) (w : SWgt.Idx → Ideal .f32) (b : SBias.Idx → Ideal .f32)
    (p : Fin 32768) (q : Fin 64) : Ideal .f32 :=
  (∑ k : Fin 4096, x (ix2 p k) * w (ix2 q k)) + b (ix1 q)

/-- The whole array of logits. -/
def logits (x : STok.Idx → Ideal .f32) (w : SWgt.Idx → Ideal .f32) (b : SBias.Idx → Ideal .f32) :
    SLog.Idx → Ideal .f32 :=
  fun i => logitAt x w b (i 0) (i 1)

theorem logits_apply (x : STok.Idx → Ideal .f32) (w : SWgt.Idx → Ideal .f32) (b : SBias.Idx → Ideal .f32)
    (p : Fin 32768) (q : Fin 64) : logits x w b (ix2 p q) = logitAt x w b p q := rfl

end Cert.Router

end
-- ==== Proof.BlockLogits.lean ====
/- One output block of the router kernel against the logits. Block t holds the tokens
   512 t, …, 512 t + 511; its four token chunks are the columns 0.., 1024.., 2048.., 3072.. of those rows
   of x, its four weight chunks the same columns of W read transposed, its bias row is b. At (p, q) the
   block's arithmetic is the four 1024-term chunk sums added left to right plus b q; a 4096-term sum is
   its four chunks added left to right in any commutative additive monoid, so the value is token
   512 t + p's logit for expert q. Re-association only: nothing is asked of the entries. -/
import proofs.«126828_g35725537968819_cont_8to1_b_281_5_alg».proof.Proof.Payload
import proofs.«126828_g35725537968819_cont_8to1_b_281_5_alg».proof.Proof.SumChunks
import proofs.«126828_g35725537968819_cont_8to1_b_281_5_alg».proof.Proof.Spec

noncomputable section

namespace Cert.KernelIdeal.Pay

open Cert.KernelIdeal Cert.KernelIdeal.Gen Idealize.ShloMosaic Idealize.SL.Sem Idealize.ShloMosaic.ValueIdx

/-- The kernel body's value at (p, q) of block t, when the block's chunks are the matching pieces of
    x, W and b, is the logit of token 512 t + p for expert q. -/
theorem block_logit (x : Cert.Router.STok.Idx → Ideal .f32) (w : Cert.Router.SWgt.Idx → Ideal .f32) (b : Cert.Router.SBias.Idx → Ideal .f32)
    (t : Fin 64) (x0 x1 x2 x3 : Vec Ideal S512x1024 .f32) (w0 w1 w2 w3 : Vec Ideal S1024x64 .f32) (b0 : Vec Ideal S1x64 .f32)
    (hx0 : ∀ (p : Fin 512) (k : Fin 1024), x0 (ix2 p k) = x (ix2 (⟨512 * t.val + p.val, by omega⟩ : Fin 32768) (⟨k.val, by omega⟩ : Fin 4096)))
    (hx1 : ∀ (p : Fin 512) (k : Fin 1024), x1 (ix2 p k) = x (ix2 (⟨512 * t.val + p.val, by omega⟩ : Fin 32768) (⟨1024 + k.val, by omega⟩ : Fin 4096)))
    (hx2 : ∀ (p : Fin 512) (k : Fin 1024), x2 (ix2 p k) = x (ix2 (⟨512 * t.val + p.val, by omega⟩ : Fin 32768) (⟨2048 + k.val, by omega⟩ : Fin 4096)))
    (hx3 : ∀ (p : Fin 512) (k : Fin 1024), x3 (ix2 p k) = x (ix2 (⟨512 * t.val + p.val, by omega⟩ : Fin 32768) (⟨3072 + k.val, by omega⟩ : Fin 4096)))
    (hw0 : ∀ (k : Fin 1024) (q : Fin 64), w0 (ix2 k q) = w (ix2 q (⟨k.val, by omega⟩ : Fin 4096)))
    (hw1 : ∀ (k : Fin 1024) (q : Fin 64), w1 (ix2 k q) = w (ix2 q (⟨1024 + k.val, by omega⟩ : Fin 4096)))
    (hw2 : ∀ (k : Fin 1024) (q : Fin 64), w2 (ix2 k q) = w (ix2 q (⟨2048 + k.val, by omega⟩ : Fin 4096)))
    (hw3 : ∀ (k : Fin 1024) (q : Fin 64), w3 (ix2 k q) = w (ix2 q (⟨3072 + k.val, by omega⟩ : Fin 4096)))
    (hb0 : ∀ q : Fin 64, b0 (ix2 (0 : Fin 1) q) = b (ix1 q))
    (p : Fin 512) (q : Fin 64) :
    k0_pay1 (F := Ideal) x0 w0 x1 w1 x2 w2 x3 w3 b0 (ix2 p q)
      = Cert.Router.logitAt x w b (⟨512 * t.val + p.val, by omega⟩ : Fin 32768) q := by
  refine (pay_apply x0 x1 x2 x3 w0 w1 w2 w3 b0 p q).trans ?_
  unfold Cert.Router.logitAt
  refine congrArg₂ (· + ·) ?_ (hb0 q)
  refine Eq.trans ?_ (Cert.Router.sum_four_chunks
    (fun k : Fin 4096 => x (ix2 (⟨512 * t.val + p.val, by omega⟩ : Fin 32768) k) * w (ix2 q k)))
  refine congrArg₂ (· + ·) (congrArg₂ (· + ·) (congrArg₂ (· + ·) ?_ ?_) ?_) ?_
  · exact Finset.sum_congr rfl fun k _ => by rw [hx0 p k, hw0 k q]
  · exact Finset.sum_congr rfl fun k _ => by rw [hx1 p k, hw1 k q]
  · exact Finset.sum_congr rfl fun k _ => by rw [hx2 p k, hw2 k q]
  · exact Finset.sum_congr rfl fun k _ => by rw [hx3 p k, hw3 k q]

end Cert.KernelIdeal.Pay

end
-- ==== Proof.HostStages.lean ====
/-
  The two host operations that prepare the kernel's operands, read at an index.
  The weights are transposed, so that entry (k, q) of the result is entry (q, k) of `W`; the bias vector
  is viewed as a single row, so that entry (0, q) of the row is entry `q` of `b`. Both are statements about
  where an entry is read from and hold for entries of any type.
-/
import proofs.«126828_g35725537968819_cont_8to1_b_281_5_alg».proof.Proof.Spec
import Idealize.ShloMosaic.Lib.Pipeline.Value
import Idealize.ShloMosaic.Lib.ValueLayout

noncomputable section

open Idealize.ShloMosaic Idealize.ShloMosaic.ValueIdx

namespace Cert.Router

/-- The transposed weights at (k, q) are the weights at (q, k). Result axis 0 is source axis 1 and result
  axis 1 is source axis 0, so the source index has `k` on axis 1 and `q` on axis 0. -/
theorem wt_apply {α : Type} (w : SWgt.Idx → α)
    (h : SWgt.Transposes [1, 0] (⟨2, ![4096, 64]⟩ : Shape)) (k : Fin 4096) (q : Fin 64) :
    transpose (⟨2, ![4096, 64]⟩ : Shape) [1, 0] w h (ix2 k q) = w (ix2 q k) :=
  transpose_apply [1, 0] w h (ix2 k q) (ix2 q k) (fun a => match a with
    | ⟨0, _⟩ => rfl
    | ⟨1, _⟩ => rfl)

/-- The bias viewed as a 1 × 64 row, at (z, q), is the bias at `q`. The row-major position of (z, q) in a
  1 × 64 array is `z * 64 + q`, and `z = 0` because the row axis has length one; the row-major position
  of `q` in a vector of 64 entries is `q`. -/
theorem bias_row_apply {α : Type} (b : SBias.Idx → α)
    (h : SBias.ShapeCasts (⟨2, ![1, 64]⟩ : Shape)) (z : Fin 1) (q : Fin 64) :
    shapeCast (⟨2, ![1, 64]⟩ : Shape) b h (ix2 z q) = b (ix1 q) :=
  shapeCast_apply b h (ix2 z q) (ix1 q) (by
    rw [Shape.rowMajor_val_one, Shape.rowMajor_val_two]
    show q.val = z.val * 64 + q.val
    omega)

end Cert.Router

end
-- ==== Proof.KernelValue.lean ====
/-
  What the kernel program computes, at the ideal values: its result array is the array of logits.
  The region finds the transposed weight at (k, q) holding W (q, k) and the bias row at (0, q) holding b q.
  At point `t` window j ≤ 3 holds rows 512·t … of the tokens at columns 1024·j …, window 4 + j holds rows
  1024·j … of the transposed weight, window 8 the bias row. So what the body leaves in the output buffer at
  (p, q) is the four chunk products added left to right plus the bias, which is the 4096-term inner product of
  token row 512·t + p with weight row q plus b q: the logit. Point `t` writes that buffer back as rows 512·t … of
  the result, and the 64 points' blocks fill the result's 32768 rows.
-/
import proofs.«126828_g35725537968819_cont_8to1_b_281_5_alg».proof.Proof.KernelIdeal.Run
import proofs.«126828_g35725537968819_cont_8to1_b_281_5_alg».proof.Proof.BlockLogits
import proofs.«126828_g35725537968819_cont_8to1_b_281_5_alg».proof.Proof.HostStages
import Idealize.ShloMosaic.Lib.Pipeline.Value
import Idealize.ShloMosaic.Lib.StableHlo.Run

set_option maxRecDepth 16384

noncomputable section

namespace Cert.KernelIdeal.HandValue

open Cert.KernelIdeal Cert.KernelIdeal.Gen Cert.KernelIdeal.Hand Cert.KernelIdeal.Pay Cert.Router
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

/-! ## The three argument arrays -/

/-- The tokens. -/
abbrev xArr (c : Dev nD) : STok.Idx → Ideal .f32 := m ((c : Thread nD τ).loc main_arg0)
/-- The weight. -/
abbrev wArr (c : Dev nD) : SWgt.Idx → Ideal .f32 := m ((c : Thread nD τ).loc main_arg1)
/-- The bias. -/
abbrev bArr (c : Dev nD) : SBias.Idx → Ideal .f32 := m ((c : Thread nD τ).loc main_arg2)

/-! ## What the host operations leave -/

/-- The region finds the transposed weight: entry (k, q) is the weight's entry (q, k). -/
theorem wt_at (c : Dev nD) (k : Fin 4096) (q : Fin 64) : V m c main_v0 (ix2 k q) = wArr m c (ix2 q k) := by
  have e : (V m c main_v0 : S4096x64.Idx → Ideal .f32) = transpose S4096x64 [1, 0] (wArr m c) transposes_S64x4096_S4096x64_1_0 := by
    dsimp only [V, hostOps0]; after_results
  exact (congrFun e (ix2 k q)).trans (wt_apply _ _ k q)

/-- The region finds the bias as one row: entry (0, q) is the bias's entry q. -/
theorem bias_at (c : Dev nD) (z : Fin 1) (q : Fin 64) : V m c main_v1 (ix2 z q) = bArr m c (ix1 q) := by
  have e : (V m c main_v1 : S1x64.Idx → Ideal .f32) = shapeCast S1x64 (bArr m c) shapeCasts_S64_S1x64 := by
    dsimp only [V, hostOps0]; after_results; rfl
  exact (congrFun e (ix2 z q)).trans (bias_row_apply _ _ z q)

/-! ## The windows' block indices, decided over the 64 grid points -/

theorem idx0 : ∀ t : Fin cfg0.N, win0_0.index t (0 : Fin 2) = t.val ∧ win0_0.index t (1 : Fin 2) = 0 :=
  (by decide +kernel : ∀ t : Fin grid0.N, _)
theorem idx1 : ∀ t : Fin cfg0.N, win0_1.index t (0 : Fin 2) = t.val ∧ win0_1.index t (1 : Fin 2) = 1 :=
  (by decide +kernel : ∀ t : Fin grid0.N, _)
theorem idx2 : ∀ t : Fin cfg0.N, win0_2.index t (0 : Fin 2) = t.val ∧ win0_2.index t (1 : Fin 2) = 2 :=
  (by decide +kernel : ∀ t : Fin grid0.N, _)
theorem idx3 : ∀ t : Fin cfg0.N, win0_3.index t (0 : Fin 2) = t.val ∧ win0_3.index t (1 : Fin 2) = 3 :=
  (by decide +kernel : ∀ t : Fin grid0.N, _)
theorem idx4 : ∀ t : Fin cfg0.N, win0_4.index t (0 : Fin 2) = 0 ∧ win0_4.index t (1 : Fin 2) = 0 :=
  (by decide +kernel : ∀ t : Fin grid0.N, _)
theorem idx5 : ∀ t : Fin cfg0.N, win0_5.index t (0 : Fin 2) = 1 ∧ win0_5.index t (1 : Fin 2) = 0 :=
  (by decide +kernel : ∀ t : Fin grid0.N, _)
theorem idx6 : ∀ t : Fin cfg0.N, win0_6.index t (0 : Fin 2) = 2 ∧ win0_6.index t (1 : Fin 2) = 0 :=
  (by decide +kernel : ∀ t : Fin grid0.N, _)
theorem idx7 : ∀ t : Fin cfg0.N, win0_7.index t (0 : Fin 2) = 3 ∧ win0_7.index t (1 : Fin 2) = 0 :=
  (by decide +kernel : ∀ t : Fin grid0.N, _)
theorem idx8 : ∀ t : Fin cfg0.N, win0_8.index t (0 : Fin 2) = 0 ∧ win0_8.index t (1 : Fin 2) = 0 :=
  (by decide +kernel : ∀ t : Fin grid0.N, _)
theorem idx9 : ∀ t : Fin cfg0.N, win0_9.index t (0 : Fin 2) = t.val ∧ win0_9.index t (1 : Fin 2) = 0 :=
  (by decide +kernel : ∀ t : Fin grid0.N, _)

/-! ## The windows' blocks, read at coordinates -/

/-- Window 0's block at point `t`: rows `512·t …` of the tokens, columns `1024·0 …`. -/
theorem xblk0 (c : Dev nD) (t : Fin cfg0.N) (ht : t.val < 64) (p : Fin 512) (k : Fin 1024) :
    iblk m c 0 t (ix2 p k) = xArr m c (ix2 (⟨512 * t.val + p.val, by omega⟩ : Fin 32768) (⟨k.val, by omega⟩ : Fin 4096)) := by
  obtain ⟨e0, e1⟩ := idx0 t
  have hemb : ((cfg0.win 0).blk t).view.emb (ix2 p k) = ix2 (⟨512 * t.val + p.val, by omega⟩ : Fin 32768) (⟨k.val, by omega⟩ : Fin 4096) :=
    funext fun a => Fin.ext (by
      match a with
      | ⟨0, _⟩ => show win0_0.index t (0 : Fin 2) * 512 + 1 * p.val = 512 * t.val + p.val; omega
      | ⟨1, _⟩ => show win0_0.index t (1 : Fin 2) * 1024 + 1 * k.val = k.val; omega)
  show V m c main_arg0 (((cfg0.win 0).blk t).view.emb (ix2 p k)) = _
  rw [hemb]
  exact congrFun (V_main_arg0 m c) _
/-- Window 1's block at point `t`: rows `512·t …` of the tokens, columns `1024·1 …`. -/
theorem xblk1 (c : Dev nD) (t : Fin cfg0.N) (ht : t.val < 64) (p : Fin 512) (k : Fin 1024) :
    iblk m c 1 t (ix2 p k) = xArr m c (ix2 (⟨512 * t.val + p.val, by omega⟩ : Fin 32768) (⟨1024 + k.val, by omega⟩ : Fin 4096)) := by
  obtain ⟨e0, e1⟩ := idx1 t
  have hemb : ((cfg0.win 1).blk t).view.emb (ix2 p k) = ix2 (⟨512 * t.val + p.val, by omega⟩ : Fin 32768) (⟨1024 + k.val, by omega⟩ : Fin 4096) :=
    funext fun a => Fin.ext (by
      match a with
      | ⟨0, _⟩ => show win0_1.index t (0 : Fin 2) * 512 + 1 * p.val = 512 * t.val + p.val; omega
      | ⟨1, _⟩ => show win0_1.index t (1 : Fin 2) * 1024 + 1 * k.val = 1024 + k.val; omega)
  show V m c main_arg0 (((cfg0.win 1).blk t).view.emb (ix2 p k)) = _
  rw [hemb]
  exact congrFun (V_main_arg0 m c) _
/-- Window 2's block at point `t`: rows `512·t …` of the tokens, columns `1024·2 …`. -/
theorem xblk2 (c : Dev nD) (t : Fin cfg0.N) (ht : t.val < 64) (p : Fin 512) (k : Fin 1024) :
    iblk m c 2 t (ix2 p k) = xArr m c (ix2 (⟨512 * t.val + p.val, by omega⟩ : Fin 32768) (⟨2048 + k.val, by omega⟩ : Fin 4096)) := by
  obtain ⟨e0, e1⟩ := idx2 t
  have hemb : ((cfg0.win 2).blk t).view.emb (ix2 p k) = ix2 (⟨512 * t.val + p.val, by omega⟩ : Fin 32768) (⟨2048 + k.val, by omega⟩ : Fin 4096) :=
    funext fun a => Fin.ext (by
      match a with
      | ⟨0, _⟩ => show win0_2.index t (0 : Fin 2) * 512 + 1 * p.val = 512 * t.val + p.val; omega
      | ⟨1, _⟩ => show win0_2.index t (1 : Fin 2) * 1024 + 1 * k.val = 2048 + k.val; omega)
  show V m c main_arg0 (((cfg0.win 2).blk t).view.emb (ix2 p k)) = _
  rw [hemb]
  exact congrFun (V_main_arg0 m c) _
/-- Window 3's block at point `t`: rows `512·t …` of the tokens, columns `1024·3 …`. -/
theorem xblk3 (c : Dev nD) (t : Fin cfg0.N) (ht : t.val < 64) (p : Fin 512) (k : Fin 1024) :
    iblk m c 3 t (ix2 p k) = xArr m c (ix2 (⟨512 * t.val + p.val, by omega⟩ : Fin 32768) (⟨3072 + k.val, by omega⟩ : Fin 4096)) := by
  obtain ⟨e0, e1⟩ := idx3 t
  have hemb : ((cfg0.win 3).blk t).view.emb (ix2 p k) = ix2 (⟨512 * t.val + p.val, by omega⟩ : Fin 32768) (⟨3072 + k.val, by omega⟩ : Fin 4096) :=
    funext fun a => Fin.ext (by
      match a with
      | ⟨0, _⟩ => show win0_3.index t (0 : Fin 2) * 512 + 1 * p.val = 512 * t.val + p.val; omega
      | ⟨1, _⟩ => show win0_3.index t (1 : Fin 2) * 1024 + 1 * k.val = 3072 + k.val; omega)
  show V m c main_arg0 (((cfg0.win 3).blk t).view.emb (ix2 p k)) = _
  rw [hemb]
  exact congrFun (V_main_arg0 m c) _
/-- Window 4's block, the same at every point: rows `1024·0 …` of the transposed weight, which are columns
    `1024·0 …` of the weight. -/
theorem wblk0 (c : Dev nD) (t : Fin cfg0.N) (k : Fin 1024) (q : Fin 64) :
    iblk m c 4 t (ix2 k q) = wArr m c (ix2 q (⟨k.val, by omega⟩ : Fin 4096)) := by
  obtain ⟨e0, e1⟩ := idx4 t
  have hemb : ((cfg0.win 4).blk t).view.emb (ix2 k q) = ix2 (⟨k.val, by omega⟩ : Fin 4096) q :=
    funext fun a => Fin.ext (by
      match a with
      | ⟨0, _⟩ => show win0_4.index t (0 : Fin 2) * 1024 + 1 * k.val = k.val; omega
      | ⟨1, _⟩ => show win0_4.index t (1 : Fin 2) * 64 + 1 * q.val = q.val; omega)
  show V m c main_v0 (((cfg0.win 4).blk t).view.emb (ix2 k q)) = _
  rw [hemb]
  exact wt_at m c _ q
/-- Window 5's block, the same at every point: rows `1024·1 …` of the transposed weight, which are columns
    `1024·1 …` of the weight. -/
theorem wblk1 (c : Dev nD) (t : Fin cfg0.N) (k : Fin 1024) (q : Fin 64) :
    iblk m c 5 t (ix2 k q) = wArr m c (ix2 q (⟨1024 + k.val, by omega⟩ : Fin 4096)) := by
  obtain ⟨e0, e1⟩ := idx5 t
  have hemb : ((cfg0.win 5).blk t).view.emb (ix2 k q) = ix2 (⟨1024 + k.val, by omega⟩ : Fin 4096) q :=
    funext fun a => Fin.ext (by
      match a with
      | ⟨0, _⟩ => show win0_5.index t (0 : Fin 2) * 1024 + 1 * k.val = 1024 + k.val; omega
      | ⟨1, _⟩ => show win0_5.index t (1 : Fin 2) * 64 + 1 * q.val = q.val; omega)
  show V m c main_v0 (((cfg0.win 5).blk t).view.emb (ix2 k q)) = _
  rw [hemb]
  exact wt_at m c _ q
/-- Window 6's block, the same at every point: rows `1024·2 …` of the transposed weight, which are columns
    `1024·2 …` of the weight. -/
theorem wblk2 (c : Dev nD) (t : Fin cfg0.N) (k : Fin 1024) (q : Fin 64) :
    iblk m c 6 t (ix2 k q) = wArr m c (ix2 q (⟨2048 + k.val, by omega⟩ : Fin 4096)) := by
  obtain ⟨e0, e1⟩ := idx6 t
  have hemb : ((cfg0.win 6).blk t).view.emb (ix2 k q) = ix2 (⟨2048 + k.val, by omega⟩ : Fin 4096) q :=
    funext fun a => Fin.ext (by
      match a with
      | ⟨0, _⟩ => show win0_6.index t (0 : Fin 2) * 1024 + 1 * k.val = 2048 + k.val; omega
      | ⟨1, _⟩ => show win0_6.index t (1 : Fin 2) * 64 + 1 * q.val = q.val; omega)
  show V m c main_v0 (((cfg0.win 6).blk t).view.emb (ix2 k q)) = _
  rw [hemb]
  exact wt_at m c _ q
/-- Window 7's block, the same at every point: rows `1024·3 …` of the transposed weight, which are columns
    `1024·3 …` of the weight. -/
theorem wblk3 (c : Dev nD) (t : Fin cfg0.N) (k : Fin 1024) (q : Fin 64) :
    iblk m c 7 t (ix2 k q) = wArr m c (ix2 q (⟨3072 + k.val, by omega⟩ : Fin 4096)) := by
  obtain ⟨e0, e1⟩ := idx7 t
  have hemb : ((cfg0.win 7).blk t).view.emb (ix2 k q) = ix2 (⟨3072 + k.val, by omega⟩ : Fin 4096) q :=
    funext fun a => Fin.ext (by
      match a with
      | ⟨0, _⟩ => show win0_7.index t (0 : Fin 2) * 1024 + 1 * k.val = 3072 + k.val; omega
      | ⟨1, _⟩ => show win0_7.index t (1 : Fin 2) * 64 + 1 * q.val = q.val; omega)
  show V m c main_v0 (((cfg0.win 7).blk t).view.emb (ix2 k q)) = _
  rw [hemb]
  exact wt_at m c _ q
/-- Window 8's block: the bias row. -/
theorem bblk (c : Dev nD) (t : Fin cfg0.N) (q : Fin 64) : iblk m c 8 t (ix2 (0 : Fin 1) q) = bArr m c (ix1 q) := by
  obtain ⟨e0, e1⟩ := idx8 t
  have hemb : ((cfg0.win 8).blk t).view.emb (ix2 (0 : Fin 1) q) = ix2 (0 : Fin 1) q :=
    funext fun a => Fin.ext (by
      match a with
      | ⟨0, _⟩ => show win0_8.index t (0 : Fin 2) * 1 + 1 * 0 = 0; omega
      | ⟨1, _⟩ => show win0_8.index t (1 : Fin 2) * 64 + 1 * q.val = q.val; omega)
  show V m c main_v1 (((cfg0.win 8).blk t).view.emb (ix2 (0 : Fin 1) q)) = _
  rw [hemb]
  exact bias_at m c 0 q

/-! ## What a point writes back -/

theorem hz : (![0, 0] : Fin 2 → Nat) = fun _ => 0 := funext fun a => by fin_cases a <;> rfl

/-- Point `t` writes back rows 512·t … of the array of logits. -/
theorem flushed_eq (c : Dev nD) (t : Fin cfg0.N) :
    (dats m 0 c).flushed 9 t = ((cfg0.win 9).blk t).view.read (Elt Ideal) (logits (xArr m c) (wArr m c) (bArr m c)) := by
  have ht : t.val < 64 := t.isLt
  show (cfg0.win 9).cut (grid0.coords t) ((dats m 0 c).after 9 t) = _
  rw [after_out]
  unfold blockOut
  rw [View.canon_unit_zero hz]
  simp only [View.ld_unit_zero (S := S512x1024) hz, View.ld_unit_zero (S := S1024x64) hz, View.ld_unit_zero (S := S1x64) hz]
  funext j
  obtain ⟨p, q, rfl⟩ : ∃ (p : Fin 512) (q : Fin 64), j = ix2 p q := ⟨j 0, j 1, eq_ix2 j⟩
  obtain ⟨e0, e1⟩ := idx9 t
  have hemb : ((cfg0.win 9).blk t).view.emb (ix2 p q) = ix2 (⟨512 * t.val + p.val, by omega⟩ : Fin 32768) q :=
    funext fun a => Fin.ext (by
      match a with
      | ⟨0, _⟩ => show win0_9.index t (0 : Fin 2) * 512 + 1 * p.val = 512 * t.val + p.val; omega
      | ⟨1, _⟩ => show win0_9.index t (1 : Fin 2) * 64 + 1 * q.val = q.val; omega)
  show k0_pay1 (F := Ideal) (iblk m c 0 t) (iblk m c 4 t) (iblk m c 1 t) (iblk m c 5 t) (iblk m c 2 t) (iblk m c 6 t)
      (iblk m c 3 t) (iblk m c 7 t) (iblk m c 8 t) (ix2 p q)
    = logits (xArr m c) (wArr m c) (bArr m c) (((cfg0.win 9).blk t).view.emb (ix2 p q))
  rw [hemb, logits_apply]
  exact block_logit (xArr m c) (wArr m c) (bArr m c) ⟨t.val, ht⟩
    (iblk m c 0 t) (iblk m c 1 t) (iblk m c 2 t) (iblk m c 3 t) (iblk m c 4 t) (iblk m c 5 t) (iblk m c 6 t) (iblk m c 7 t) (iblk m c 8 t)
    (xblk0 m c t ht) (xblk1 m c t ht) (xblk2 m c t ht) (xblk3 m c t ht) (wblk0 m c t) (wblk1 m c t) (wblk2 m c t) (wblk3 m c t) (bblk m c t) p q

/-! ## The blocks fill the result -/

/-- An index of the result is in point `t`'s block iff each coordinate is in the block's range on its axis. -/
theorem mem_blk (t : Fin cfg0.N) (i : S32768x64.Idx) :
    i ∈ ((cfg0.win 9).blk t).view.set ↔ ∀ a : Fin 2, win0_9.index t a * S512x64.size a ≤ (i a).val ∧ (i a).val < win0_9.index t a * S512x64.size a + S512x64.size a := by
  show i ∈ ((View.whole main_v2).slice (win0_9.rect t)).set ↔ _
  rw [View.set_slice_whole, Rect.mem_set_unit]
  exact Iff.rfl

/-- Row `r` of the result is in the block of point `r / 512`, which writes it back. -/
theorem cover (i : S32768x64.Idx) : ∃ t : Fin cfg0.N, (cfg0.win 9).flush t = true ∧ i ∈ ((cfg0.win 9).blk t).view.set := by
  have hi0 : (i 0).val < 32768 := (i 0).isLt
  have hi1 : (i 1).val < 64 := (i 1).isLt
  obtain ⟨t, ht⟩ : ∃ t : Fin cfg0.N, t.val = (i 0).val / 512 := ⟨⟨(i 0).val / 512, by show (i 0).val / 512 < 64; omega⟩, rfl⟩
  obtain ⟨e0, e1⟩ := idx9 t
  refine ⟨t, flush0_9 t, ?_⟩
  rw [mem_blk]
  intro a
  match a with
  | ⟨0, _⟩ => show win0_9.index t (0 : Fin 2) * 512 ≤ (i 0).val ∧ (i 0).val < win0_9.index t (0 : Fin 2) * 512 + 512; omega
  | ⟨1, _⟩ => show win0_9.index t (1 : Fin 2) * 64 ≤ (i 1).val ∧ (i 1).val < win0_9.index t (1 : Fin 2) * 64 + 64; omega

/-- After the last write-back the result array is the array of logits. -/
theorem final (c : Dev nD) : (dats m 0 c).arrAt 9 cfg0.N = logits (xArr m c) (wArr m c) (bArr m c) :=
  (dats m 0 c).arrAt_eq_of_cover 9 _ (fun t _ => flushed_eq m c t) cover

/-! ## The run, read -/

/-- Every execution of the kernel program ends with the result array at the logits of the launch contents of the
    three arguments, and the arguments unchanged. -/
theorem run : θ_run defs (onTc (τ := τ) (main (F := Ideal))) ⟨m, fun _ => 0, ρ⟩ fun r => ∀ c : Dev nD,
      r.2.mem ((c.tc : Thread nD τ).loc main_v2) = logits (xArr m c) (wArr m c) (bArr m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨((h c).1 9).trans (final m c),
      ((h c).1 0).trans (((dats m 0 c).arrAt_in 0 rfl _).trans ((A_eq m c 0).trans (V_main_arg0 m c))),
      ((h c).2 main_arg1 (Pipeline.mem_restRefs_of main_arg1 (by decide) (by decide))).trans (V_main_arg1 m c),
      ((h c).2 main_arg2 (Pipeline.mem_restRefs_of main_arg2 (by decide) (by decide))).trans (V_main_arg2 m c)⟩) (run_main m ρ)

end Cert.KernelIdeal.HandValue

end
-- ==== Proof.RefLogits.lean ====
/-
  The reference program, read at an index, is the specification. Its last stage adds two arrays: the
  4096-deep contraction of `x` against the transposed weights, and the bias broadcast along the token axis.
  Reading each stage at the index `(p, q)` gives the inner product of row `p` of `x` with row `q` of `W`
  plus `b q`, which is `logitAt` by definition. Nothing but the stages' index maps is used.
-/
import proofs.«126828_g35725537968819_cont_8to1_b_281_5_alg».proof.Proof.Spec
import proofs.«126828_g35725537968819_cont_8to1_b_281_5_alg».proof.Proof.Gen.ReferenceIdeal.Read

noncomputable section

open Idealize.ShloMosaic Idealize.ShloMosaic.ValueIdx
open Cert.ReferenceIdeal Cert.ReferenceIdeal.Read
open scoped BigOperators

namespace Cert.Router

/-- The left operand's index in the contraction: row `p`, column `k` of `x`. -/
theorem lidx_eq (p : Fin 32768) (q : Fin 64) (k : Fin 4096) :
    lidx_main_v1 (ix2 p q) k = ix2 p k :=
  funext fun a => match a with
    | ⟨0, _⟩ => rfl
    | ⟨1, _⟩ => rfl

/-- The transposed weights read at (k, q) are the weights at (q, k): the right operand's index in the
  contraction, carried through the transpose. -/
theorem ridx_eq (p : Fin 32768) (q : Fin 64) (k : Fin 4096) :
    idx_main_v0 (ridx_main_v1 (ix2 p q) k) = ix2 q k :=
  funext fun a => match a with
    | ⟨0, _⟩ => rfl
    | ⟨1, _⟩ => rfl

/-- The bias, broadcast to a row and then along the tokens, read at (p, q) is the bias at `q`. -/
theorem bidx_eq (p : Fin 32768) (q : Fin 64) :
    idx_main_v2 (idx_main_v3 (ix2 p q)) = ix1 q :=
  funext fun a => match a with
    | ⟨0, _⟩ => rfl

/-- The reference's last stage is the array of logits. -/
theorem ref_is_logits
    (x : (⟨Cert.ReferenceIdeal.S32768x4096, .f32⟩ : BufTy).Contents (Elt Ideal))
    (w : (⟨Cert.ReferenceIdeal.S64x4096, .f32⟩ : BufTy).Contents (Elt Ideal))
    (b : (⟨Cert.ReferenceIdeal.S64, .f32⟩ : BufTy).Contents (Elt Ideal)) :
    Cert.ReferenceIdeal.Read.val_main_v4 (F := Ideal) x w b = logits x w b := by
  funext i
  obtain ⟨p, q, rfl⟩ : ∃ p q, i = ix2 p q := ⟨i 0, i 1, eq_ix2 i⟩
  rw [val_main_v4_apply, val_main_v1_apply, val_main_v3_apply, val_main_v2_apply, bidx_eq, logits_apply]
  unfold logitAt
  rw [Ideal.addf_def]
  congr 1
  refine Finset.sum_congr rfl fun k _ => ?_
  rw [val_main_v0_apply, lidx_eq, ridx_eq]

end Cert.Router

end
-- ==== Proof.lean ====
/-
  The router's logits, `x · Wᵀ + b` over 32768 tokens, 4096 hidden coordinates and 64 experts: the kernel against its
  reference, over the extended reals.

  The kernel walks the tokens in 64 blocks of 512 rows. At each block it reads four 1024-column chunks of the block
  (four windows on the ONE array `x`) and the four matching 1024-row chunks of `Wᵀ` (four windows on the ONE
  transposed weight), multiplies chunk by chunk into zero accumulators, adds the four products left to right, adds
  the bias row, and writes the 512 × 64 block of logits back. The reference contracts all 4096 coordinates at once
  and adds the broadcast bias.

  Frames. Each kernel program runs to the end, faults nowhere and leaves `x`, `W`, `b` as launched: the body's
  triple on whole staging buffers, the pipeline's proof data (an input buffer holds its block at every point; the
  output buffer holds a pure function of the nine input blocks), and the launch of a region whose input windows
  share arrays — each shared array's full share dealt in quarters to its four windows (Proof/KernelIdeal/Run.lean,
  and the same text for the word-level program under Proof/Kernel/). The reference's frame is its run with the
  result dropped. The idealization rewrote nothing, so `preserves` is `True`.

  Values. At the ideal instance the kernel's result array is the array of logits of the specification
  (Proof/KernelValue.lean): a block's entry (p, q) is the four 1024-term chunk sums added left to right plus
  `b q`, and four consecutive chunk sums are the 4096-term sum by re-association alone (Proof/SumChunks.lean) — true
  in every commutative monoid, so no finiteness of the inputs is used. The reference's last stage, read at an
  index, is the same function (Proof/RefLogits.lean). Both runs end at that one array.
-/
import proofs.«126828_g35725537968819_cont_8to1_b_281_5_alg».proof.Defs
import proofs.«126828_g35725537968819_cont_8to1_b_281_5_alg».proof.Proof.Kernel.Run
import proofs.«126828_g35725537968819_cont_8to1_b_281_5_alg».proof.Proof.KernelIdeal.Run
import proofs.«126828_g35725537968819_cont_8to1_b_281_5_alg».proof.Proof.KernelValue
import proofs.«126828_g35725537968819_cont_8to1_b_281_5_alg».proof.Proof.RefLogits
import proofs.«126828_g35725537968819_cont_8to1_b_281_5_alg».proof.Proof.Gen.Kernel
import proofs.«126828_g35725537968819_cont_8to1_b_281_5_alg».proof.Proof.Gen.KernelIdeal
import proofs.«126828_g35725537968819_cont_8to1_b_281_5_alg».proof.Proof.Gen.ReferenceIdeal
import proofs.«126828_g35725537968819_cont_8to1_b_281_5_alg».proof.Proof.Gen.ReferenceIdeal.Run
import proofs.«126828_g35725537968819_cont_8to1_b_281_5_alg».proof.Proof.Gen.Pre_finite_inputs
import Idealize.ShloMosaic.Adequacy
import Idealize.ShloMosaic.Init

noncomputable section

namespace Cert.Proof

open Idealize.ShloMosaic Idealize.ShloMosaic.TcCoe Idealize.SL.Sem

/-- The word-level kernel program runs and leaves its arguments unchanged. -/
theorem frame_kernel : Cert.frame_Kernel := fun m ρ _ => Cert.Kernel.Hand.frame (F := Bits) m ρ

/-- So does its idealization. -/
theorem frame_kernelIdeal : Cert.frame_KernelIdeal := fun m ρ _ => Cert.KernelIdeal.Hand.frame (F := Ideal) m ρ

/-- The reference's frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The ideal pass rewrote no operation. -/
theorem preserves : Cert.preserves_Kernel_KernelIdeal := trivial

/-- From memories agreeing on the three arguments both idealized programs end with the result at the array of
    logits of those arguments. -/
theorem algebraic : Cert.algebraic_KernelIdeal_ReferenceIdeal := by
  intro m ρ m' ρ' _ hagree
  refine ⟨_, Cert.KernelIdeal.HandValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v4_eq, Cert.Router.ref_is_logits, (hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
